-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128 : Shape := ⟨2, ![8, 128]⟩
abbrev S32x32x32x3 : Shape := ⟨4, ![32, 32, 32, 3]⟩
abbrev S48x48x48x3 : Shape := ⟨4, ![48, 48, 48, 3]⟩
abbrev S128x3 : Shape := ⟨2, ![128, 3]⟩
abbrev S128 : Shape := ⟨1, ![128]⟩
abbrev S256x128 : Shape := ⟨2, ![256, 128]⟩
abbrev S256 : Shape := ⟨1, ![256]⟩
abbrev S128x128 : Shape := ⟨2, ![128, 128]⟩
abbrev S4x128 : Shape := ⟨2, ![4, 128]⟩
abbrev S4 : Shape := ⟨1, ![4]⟩
abbrev S8 : Shape := ⟨1, ![8]⟩
abbrev S_ : Shape := ⟨0, ![]⟩

class Facts : Prop where
  bcast_S_S8x128 : S_.BroadcastsInDim S8x128 (![] : Fin 0 → Fin S8x128.rank)
  reducesTo_S8x128_S_d0_1 : S8x128.ReducesTo [0, 1] S_
  h_S_ : 0 < S_.numel
  bcast_S_S32x32x32x3 : S_.BroadcastsInDim S32x32x32x3 (![] : Fin 0 → Fin S32x32x32x3.rank)
  reducesTo_S32x32x32x3_S_d0_1_2_3 : S32x32x32x3.ReducesTo [0, 1, 2, 3] S_
  bcast_S_S48x48x48x3 : S_.BroadcastsInDim S48x48x48x3 (![] : Fin 0 → Fin S48x48x48x3.rank)
  reducesTo_S48x48x48x3_S_d0_1_2_3 : S48x48x48x3.ReducesTo [0, 1, 2, 3] S_
  bcast_S_S128x3 : S_.BroadcastsInDim S128x3 (![] : Fin 0 → Fin S128x3.rank)
  reducesTo_S128x3_S_d0_1 : S128x3.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x128 : S_.BroadcastsInDim S128x128 (![] : Fin 0 → Fin S128x128.rank)
  reducesTo_S128x128_S_d0_1 : S128x128.ReducesTo [0, 1] S_
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_
  bcast_S_S8 : S_.BroadcastsInDim S8 (![] : Fin 0 → Fin S8.rank)
  reducesTo_S8_S_d0 : S8.ReducesTo [0] S_

variable [Facts]

def fn_part4 {F : FTy → Type} [FloatOps F] (main_arg14 : FVec F S8 .f32) (main_v63 : IVec S_ 1) (main_v67 : IVec S_ 1) : IVec S_ 1 :=
  let main_v68 : IVec S_ 1 := andi main_v63 main_v67
  let main_v69 : FVec F S8 .f32 := Host.absf main_arg14
  let main_cst_26 : FVec F S_ .f32 := constant S_ .f32 0x7F800000#32
  let main_v70 : FVec F S8 .f32 := broadcastInDim S8 ![] bcast_S_S8 main_cst_26
  let main_v71 : IVec S8 1 := cmpf .olt main_v69 main_v70
  let main_c_27 : IVec S_ 1 := constantI S_ 1 1#1
  let main_v72 : IVec S_ 1 := (fun x v => Host.reduce IntOp.andi x v reducesTo_S8_S_d0 h_S_) main_v71 main_c_27
  let main_v73 : IVec S_ 1 := andi main_v68 main_v72
  main_v73

def fn_part3 {F : FTy → Type} [FloatOps F] (main_arg11 : FVec F S4x128 .f32) (main_arg12 : FVec F S4 .f32) (main_arg13 : FVec F S8x128 .f32) (main_arg14 : FVec F S8 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S4x128 .f32 := Host.absf main_arg11
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  let main_v59 : FVec F S4 .f32 := Host.absf main_arg12
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S8x128 .f32 := Host.absf main_arg13
  let main_cst_24 : FVec F S_ .f32 := constant S_ .f32 0x7F800000#32
  let main_v65 : FVec F S8x128 .f32 := broadcastInDim S8x128 ![] bcast_S_S8x128 main_cst_24
  let main_v66 : IVec S8x128 1 := cmpf .olt main_v64 main_v65
  let main_c_25 : IVec S_ 1 := constantI S_ 1 1#1
  let main_v67 : IVec S_ 1 := (fun x v => Host.reduce IntOp.andi x v reducesTo_S8x128_S_d0_1 h_S_) main_v66 main_c_25
  fn_part4 (F := F) main_arg14 main_v63 main_v67

def fn_part2 {F : FTy → Type} [FloatOps F] (main_arg7 : FVec F S128x128 .f32) (main_arg8 : FVec F S128 .f32) (main_arg9 : FVec F S256x128 .f32) (main_arg10 : FVec F S256 .f32) (main_arg11 : FVec F S4x128 .f32) (main_arg12 : FVec F S4 .f32) (main_arg13 : FVec F S8x128 .f32) (main_arg14 : FVec F S8 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_v48 main_v49 main_v50

def fn_part1 {F : FTy → Type} [FloatOps F] (main_arg4 : FVec F S128 .f32) (main_arg5 : FVec F S256x128 .f32) (main_arg6 : FVec F S256 .f32) (main_arg7 : FVec F S128x128 .f32) (main_arg8 : FVec F S128 .f32) (main_arg9 : FVec F S256x128 .f32) (main_arg10 : FVec F S256 .f32) (main_arg11 : FVec F S4x128 .f32) (main_arg12 : FVec F S4 .f32) (main_arg13 : FVec F S8x128 .f32) (main_arg14 : FVec F S8 .f32) (main_v13 : IVec S_ 1) (main_v16 : IVec S128x3 1) : IVec S_ 1 :=
  let main_c_5 : IVec S_ 1 := constantI S_ 1 1#1
  let main_v17 : IVec S_ 1 := (fun x v => Host.reduce IntOp.andi x v reducesTo_S128x3_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S8x128 .f32) (main_arg1 : FVec F S32x32x32x3 .f32) (main_arg2 : FVec F S48x48x48x3 .f32) (main_arg3 : FVec F S128x3 .f32) (main_arg4 : FVec F S128 .f32) (main_arg5 : FVec F S256x128 .f32) (main_arg6 : FVec F S256 .f32) (main_arg7 : FVec F S128x128 .f32) (main_arg8 : FVec F S128 .f32) (main_arg9 : FVec F S256x128 .f32) (main_arg10 : FVec F S256 .f32) (main_arg11 : FVec F S4x128 .f32) (main_arg12 : FVec F S4 .f32) (main_arg13 : FVec F S8x128 .f32) (main_arg14 : FVec F S8 .f32) : IVec S_ 1 :=
  let main_v0 : FVec F S8x128 .f32 := Host.absf main_arg0
  let main_cst : FVec F S_ .f32 := constant S_ .f32 0x7F800000#32
  let main_v1 : FVec F S8x128 .f32 := broadcastInDim S8x128 ![] bcast_S_S8x128 main_cst
  let main_v2 : IVec S8x128 1 := cmpf .olt main_v0 main_v1
  let main_c : IVec S_ 1 := constantI S_ 1 1#1
  let main_v3 : IVec S_ 1 := (fun x v => Host.reduce IntOp.andi x v reducesTo_S8x128_S_d0_1 h_S_) main_v2 main_c
  let main_v4 : FVec F S32x32x32x3 .f32 := Host.absf main_arg1
  let main_cst_0 : FVec F S_ .f32 := constant S_ .f32 0x7F800000#32
  let main_v5 : FVec F S32x32x32x3 .f32 := broadcastInDim S32x32x32x3 ![] bcast_S_S32x32x32x3 main_cst_0
  let main_v6 : IVec S32x32x32x3 1 := cmpf .olt main_v4 main_v5
  let main_c_1 : IVec S_ 1 := constantI S_ 1 1#1
  let main_v7 : IVec S_ 1 := (fun x v => Host.reduce IntOp.andi x v reducesTo_S32x32x32x3_S_d0_1_2_3 h_S_) main_v6 main_c_1
  let main_v8 : IVec S_ 1 := andi main_v3 main_v7
  let main_v9 : FVec F S48x48x48x3 .f32 := Host.absf main_arg2
  let main_cst_2 : FVec F S_ .f32 := constant S_ .f32 0x7F800000#32
  let main_v10 : FVec F S48x48x48x3 .f32 := broadcastInDim S48x48x48x3 ![] bcast_S_S48x48x48x3 main_cst_2
  let main_v11 : IVec S48x48x48x3 1 := cmpf .olt main_v9 main_v10
  let main_c_3 : IVec S_ 1 := constantI S_ 1 1#1
  let main_v12 : IVec S_ 1 := (fun x v => Host.reduce IntOp.andi x v reducesTo_S48x48x48x3_S_d0_1_2_3 h_S_) main_v11 main_c_3
  let main_v13 : IVec S_ 1 := andi main_v8 main_v12
  let main_v14 : FVec F S128x3 .f32 := Host.absf main_arg3
  let main_cst_4 : FVec F S_ .f32 := constant S_ .f32 0x7F800000#32
  let main_v15 : FVec F S128x3 .f32 := broadcastInDim S128x3 ![] bcast_S_S128x3 main_cst_4
  let main_v16 : IVec S128x3 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S8x128 : Shape := ⟨2, ![8, 128]⟩
abbrev S32x32x32x3 : Shape := ⟨4, ![32, 32, 32, 3]⟩
abbrev S48x48x48x3 : Shape := ⟨4, ![48, 48, 48, 3]⟩
abbrev S128x3 : Shape := ⟨2, ![128, 3]⟩
abbrev S128 : Shape := ⟨1, ![128]⟩
abbrev S256x128 : Shape := ⟨2, ![256, 128]⟩
abbrev S256 : Shape := ⟨1, ![256]⟩
abbrev S128x128 : Shape := ⟨2, ![128, 128]⟩
abbrev S4x128 : Shape := ⟨2, ![4, 128]⟩
abbrev S4 : Shape := ⟨1, ![4]⟩
abbrev S8 : Shape := ⟨1, ![8]⟩
abbrev S128x256 : Shape := ⟨2, ![128, 256]⟩
abbrev S8x256 : Shape := ⟨2, ![8, 256]⟩
abbrev S1x256 : Shape := ⟨2, ![1, 256]⟩
abbrev S128x8 : Shape := ⟨2, ![128, 8]⟩
abbrev S8x8 : Shape := ⟨2, ![8, 8]⟩
abbrev S1x8 : Shape := ⟨2, ![1, 8]⟩
abbrev S8x4 : Shape := ⟨2, ![8, 4]⟩
abbrev S32768x3 : Shape := ⟨2, ![32768, 3]⟩
abbrev S8x32768x4 : Shape := ⟨3, ![8, 32768, 4]⟩
abbrev S512x3 : Shape := ⟨2, ![512, 3]⟩
abbrev S8x512x4 : Shape := ⟨3, ![8, 512, 4]⟩
abbrev S3x128 : Shape := ⟨2, ![3, 128]⟩
abbrev S512x128 : Shape := ⟨2, ![512, 128]⟩
abbrev S1x128 : Shape := ⟨2, ![1, 128]⟩
abbrev S1x512x128 : Shape := ⟨3, ![1, 512, 128]⟩
abbrev S8x1x128 : Shape := ⟨3, ![8, 1, 128]⟩
abbrev S8x512x128 : Shape := ⟨3, ![8, 512, 128]⟩
abbrev S4096x128 : Shape := ⟨2, ![4096, 128]⟩
abbrev S128x4 : Shape := ⟨2, ![128, 4]⟩
abbrev S4096x4 : Shape := ⟨2, ![4096, 4]⟩
abbrev S1x4 : Shape := ⟨2, ![1, 4]⟩
abbrev S8x1x4 : Shape := ⟨3, ![8, 1, 4]⟩
abbrev S8x131072 : Shape := ⟨2, ![8, 131072]⟩
abbrev S110592x3 : Shape := ⟨2, ![110592, 3]⟩
abbrev S8x110592x4 : Shape := ⟨3, ![8, 110592, 4]⟩
abbrev S8x442368 : Shape := ⟨2, ![8, 442368]⟩
abbrev S8x573440 : Shape := ⟨2, ![8, 573440]⟩

abbrev nBuf : Space → Nat
  | .hbm => 43
  | .vmem => 32
  | .smem => 0
  | _ => 0

abbrev bufTy : (tb : Table) → Fin (tcTables nBuf tb) → BufTy
  | .hbm, ⟨0, _⟩ => ⟨S8x128, .f32⟩
  | .hbm, ⟨1, _⟩ => ⟨S32x32x32x3, .f32⟩
  | .hbm, ⟨2, _⟩ => ⟨S48x48x48x3, .f32⟩
  | .hbm, ⟨3, _⟩ => ⟨S128x3, .f32⟩
  | .hbm, ⟨4, _⟩ => ⟨S128, .f32⟩
  | .hbm, ⟨5, _⟩ => ⟨S256x128, .f32⟩
  | .hbm, ⟨6, _⟩ => ⟨S256, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S256, .f32⟩
  | .hbm, ⟨11, _⟩ => ⟨S4x128, .f32⟩
  | .hbm, ⟨12, _⟩ => ⟨S4, .f32⟩
  | .hbm, ⟨13, _⟩ => ⟨S8x128, .f32⟩
  | .hbm, ⟨14, _⟩ => ⟨S8, .f32⟩
  | .hbm, ⟨15, _⟩ => ⟨S128x256, .f32⟩
  | .hbm, ⟨16, _⟩ => ⟨S8x256, .f32⟩
  | .hbm, ⟨17, _⟩ => ⟨S1x256, .f32⟩
  | .hbm, ⟨18, _⟩ => ⟨S8x256, .f32⟩
  | .hbm, ⟨19, _⟩ => ⟨S8x256, .f32⟩
  | .hbm, ⟨20, _⟩ => ⟨S8x128, .f32⟩
  | .hbm, ⟨21, _⟩ => ⟨S8x128, .f32⟩
  | .hbm, ⟨22, _⟩ => ⟨S128x256, .f32⟩
  | .hbm, ⟨23, _⟩ => ⟨S8x256, .f32⟩
  | .hbm, ⟨24, _⟩ => ⟨S1x256, .f32⟩
  | .hbm, ⟨25, _⟩ => ⟨S8x256, .f32⟩
  | .hbm, ⟨26, _⟩ => ⟨S8x256, .f32⟩
  | .hbm, ⟨27, _⟩ => ⟨S8x128, .f32⟩
  | .hbm, ⟨28, _⟩ => ⟨S8x128, .f32⟩
  | .hbm, ⟨29, _⟩ => ⟨S128x8, .f32⟩
  | .hbm, ⟨30, _⟩ => ⟨S8x8, .f32⟩
  | .hbm, ⟨31, _⟩ => ⟨S1x8, .f32⟩
  | .hbm, ⟨32, _⟩ => ⟨S8x8, .f32⟩
  | .hbm, ⟨33, _⟩ => ⟨S8x8, .f32⟩
  | .hbm, ⟨34, _⟩ => ⟨S8x4, .f32⟩
  | .hbm, ⟨35, _⟩ => ⟨S8x4, .f32⟩
  | .hbm, ⟨36, _⟩ => ⟨S32768x3, .f32⟩
  | .hbm, ⟨37, _⟩ => ⟨S8x32768x4, .f32⟩
  | .hbm, ⟨38, _⟩ => ⟨S8x131072, .f32⟩
  | .hbm, ⟨39, _⟩ => ⟨S110592x3, .f32⟩
  | .hbm, ⟨40, _⟩ => ⟨S8x110592x4, .f32⟩
  | .hbm, ⟨41, _⟩ => ⟨S8x442368, .f32⟩
  | .hbm, ⟨42, _⟩ => ⟨S8x573440, .f32⟩
  | .local _ .vmem, ⟨0, _⟩ => ⟨S512x3, .f32⟩
  | .local _ .vmem, ⟨1, _⟩ => ⟨S512x3, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x4, .f32⟩
  | .local _ .vmem, ⟨7, _⟩ => ⟨S8x4, .f32⟩
  | .local _ .vmem, ⟨8, _⟩ => ⟨S128x3, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S4x128, .f32⟩
  | .local _ .vmem, ⟨13, _⟩ => ⟨S4, .f32⟩
  | .local _ .vmem, ⟨14, _⟩ => ⟨S8x512x4, .f32⟩
  | .local _ .vmem, ⟨15, _⟩ => ⟨S8x512x4, .f32⟩
  | .local _ .vmem, ⟨16, _⟩ => ⟨S512x3, .f32⟩
  | .local _ .vmem, ⟨17, _⟩ => ⟨S512x3, .f32⟩
  | .local _ .vmem, ⟨18, _⟩ => ⟨S8x128, .f32⟩
  | .local _ .vmem, ⟨19, _⟩ => ⟨S8x128, .f32⟩
  | .local _ .vmem, ⟨20, _⟩ => ⟨S8x128, .f32⟩
  | .local _ .vmem, ⟨21, _⟩ => ⟨S8x128, .f32⟩
  | .local _ .vmem, ⟨22, _⟩ => ⟨S8x4, .f32⟩
  | .local _ .vmem, ⟨23, _⟩ => ⟨S8x4, .f32⟩
  | .local _ .vmem, ⟨24, _⟩ => ⟨S128x3, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S4x128, .f32⟩
  | .local _ .vmem, ⟨29, _⟩ => ⟨S4, .f32⟩
  | .local _ .vmem, ⟨30, _⟩ => ⟨S8x512x4, .f32⟩
  | .local _ .vmem, ⟨31, _⟩ => ⟨S8x512x4, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg13_0 : Ref sig .tc := ⟨.vmem, 30, rfl⟩
abbrev cc1_stg13_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem13_0 : DmaSem sig := 30
abbrev cc1_sem13_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8x512x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![216], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x4 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x3 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S4x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S4 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S8x512x4 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  transposes_S256x128_S128x256_1_0 : S256x128.Transposes [1, 0] S128x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  slices_S8x256_S8x128_0_0 : S8x256.Slices ![0, 0] S8x128
  slices_S8x256_S8x128_0_128 : S8x256.Slices ![0, 128] S8x128
  transposes_S8x128_S128x8_1_0 : S8x128.Transposes [1, 0] S128x8
  bcast_S8_S1x8_1 : S8.BroadcastsInDim S1x8 (![1] : Fin 1 → Fin S1x8.rank)
  bcast_S1x8_S8x8_0_1 : S1x8.BroadcastsInDim S8x8 (![0, 1] : Fin 2 → Fin S8x8.rank)
  slices_S8x8_S8x4_0_0 : S8x8.Slices ![0, 0] S8x4
  slices_S8x8_S8x4_0_4 : S8x8.Slices ![0, 4] S8x4
  shapeCasts_S32x32x32x3_S32768x3 : S32x32x32x3.ShapeCasts S32768x3
  inb_S512x3_S512x3_0_0 : ∀ a, (![0, 0] : Fin 2 → Nat) a + S512x3.size a ≤ S512x3.size a
  h_S512x3 : 0 < S512x3.numel
  shapeCasts_S512x3_S512x3 : S512x3.ShapeCasts S512x3
  bitsLt_bf16_f32 : FTy.bits .bf16 < FTy.bits .f32
  inb_S128x3_S128x3_0_0 : ∀ a, (![0, 0] : Fin 2 → Nat) a + S128x3.size a ≤ S128x3.size a
  h_S128x3 : 0 < S128x3.numel
  transposes_S128x3_p1_0_S3x128 : S128x3.Transposes [1, 0] S3x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S512x128_S1x512x128 : S512x128.ShapeCasts S1x512x128
  shapeCasts_S8x128_S8x1x128 : S8x128.ShapeCasts S8x1x128
  broadcasts_S1x512x128_S8x512x128 : S1x512x128.Broadcasts S8x512x128
  broadcasts_S8x1x128_S8x512x128 : S8x1x128.Broadcasts S8x512x128
  shapeCasts_S8x512x128_S4096x128 : S8x512x128.ShapeCasts S4096x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  broadcasts_S1x128_S4096x128 : S1x128.Broadcasts S4096x128
  shapeCasts_S4096x128_S8x512x128 : S4096x128.ShapeCasts S8x512x128
  inb_S4x128_S4x128_0_0 : ∀ a, (![0, 0] : Fin 2 → Nat) a + S4x128.size a ≤ S4x128.size a
  h_S4x128 : 0 < S4x128.numel
  transposes_S4x128_p1_0_S128x4 : S4x128.Transposes [1, 0] S128x4
  inb_S4_S4_0 : ∀ a, (![0] : Fin 1 → Nat) a + S4.size a ≤ S4.size a
  h_S4 : 0 < S4.numel
  shapeCasts_S4_S1x4 : S4.ShapeCasts S1x4
  broadcasts_S1x4_S4096x4 : S1x4.Broadcasts S4096x4
  shapeCasts_S4096x4_S8x512x4 : S4096x4.ShapeCasts S8x512x4
  inb_S8x4_S8x4_0_0 : ∀ a, (![0, 0] : Fin 2 → Nat) a + S8x4.size a ≤ S8x4.size a
  h_S8x4 : 0 < S8x4.numel
  shapeCasts_S8x4_S8x4 : S8x4.ShapeCasts S8x4
  shapeCasts_S8x4_S8x1x4 : S8x4.ShapeCasts S8x1x4
  broadcasts_S8x1x4_S8x512x4 : S8x1x4.Broadcasts S8x512x4
  inb_S8x512x4_S8x512x4_0_0_0 : ∀ a, (![0, 0, 0] : Fin 3 → Nat) a + S8x512x4.size a ≤ S8x512x4.size a
  h_S8x512x4 : 0 < S8x512x4.numel
  shapeCasts_S8x32768x4_S8x131072 : S8x32768x4.ShapeCasts S8x131072
  shapeCasts_S48x48x48x3_S110592x3 : S48x48x48x3.ShapeCasts S110592x3
  shapeCasts_S8x110592x4_S8x442368 : S8x110592x4.ShapeCasts S8x442368
  concatenates_S8x131072_S8x442368_S8x573440_d1 : Shape.Concatenates [S8x131072, S8x442368] S8x573440 1
  dot_S8x128_S128x256_S8x256_1_0_0_1_n_n_wf : DotDims.WF S8x128 S128x256 S8x256 [1] [0] [0] [1] [] []
  dot_S8x128_S128x8_S8x8_1_0_0_1_n_n_wf : DotDims.WF S8x128 S128x8 S8x8 [1] [0] [0] [1] [] []
  dot_S512x3_S3x128_S512x128_1_0_0_1_n_n_wf : DotDims.WF S512x3 S3x128 S512x128 [1] [0] [0] [1] [] []
  dot_S4096x128_S128x128_S4096x128_1_0_0_1_n_n_wf : DotDims.WF S4096x128 S128x128 S4096x128 [1] [0] [0] [1] [] []
  dot_S4096x128_S128x4_S4096x4_1_0_0_1_n_n_wf : DotDims.WF S4096x128 S128x4 S4096x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S32768x3.size a
  hwx0_0 : ∀ i : grid0.Coords, EltTy.bits .f32 = 32 ∨ (Rect.block (s := S32768x3) S512x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x4.size a ≤ S8x4.size a
  hwx0_5 : ∀ i : grid0.Coords, EltTy.bits .f32 = 32 ∨ (Rect.block (s := S8x4) S8x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x4.size a ≤ S8x4.size a
  hwx0_6 : ∀ i : grid0.Coords, EltTy.bits .f32 = 32 ∨ (Rect.block (s := S8x4) S8x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x3.size a ≤ S128x3.size a
  hwx0_7 : ∀ i : grid0.Coords, EltTy.bits .f32 = 32 ∨ (Rect.block (s := S128x3) S128x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x128.size a ≤ S4x128.size a
  hwx0_11 : ∀ i : grid0.Coords, EltTy.bits .f32 = 32 ∨ (Rect.block (s := S4x128) S4x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4.size a ≤ S4.size a
  hwx0_12 : ∀ i : grid0.Coords, EltTy.bits .f32 = 32 ∨ (Rect.block (s := S4) S4.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S8x512x4.size a ≤ S8x32768x4.size a
  hwx0_13 : ∀ i : grid0.Coords, EltTy.bits .f32 = 32 ∨ (Rect.block (s := S8x32768x4) S8x512x4.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x3.size a ≤ S110592x3.size a
  hwx1_0 : ∀ i : grid1.Coords, EltTy.bits .f32 = 32 ∨ (Rect.block (s := S110592x3) S512x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S8x128.size a
  hwx1_1 : ∀ i : grid1.Coords, EltTy.bits .f32 = 32 ∨ (Rect.block (s := S8x128) S8x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S8x128.size a
  hwx1_2 : ∀ i : grid1.Coords, EltTy.bits .f32 = 32 ∨ (Rect.block (s := S8x128) S8x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x128.size a ≤ S8x128.size a
  hwx1_3 : ∀ i : grid1.Coords, EltTy.bits .f32 = 32 ∨ (Rect.block (s := S8x128) S8x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8x128.size a ≤ S8x128.size a
  hwx1_4 : ∀ i : grid1.Coords, EltTy.bits .f32 = 32 ∨ (Rect.block (s := S8x128) S8x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x4.size a ≤ S8x4.size a
  hwx1_5 : ∀ i : grid1.Coords, EltTy.bits .f32 = 32 ∨ (Rect.block (s := S8x4) S8x4.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S8x4.size a ≤ S8x4.size a
  hwx1_6 : ∀ i : grid1.Coords, EltTy.bits .f32 = 32 ∨ (Rect.block (s := S8x4) S8x4.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x3.size a ≤ S128x3.size a
  hwx1_7 : ∀ i : grid1.Coords, EltTy.bits .f32 = 32 ∨ (Rect.block (s := S128x3) S128x3.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128.size a ≤ S128.size a
  hwx1_10 : ∀ i : grid1.Coords, EltTy.bits .f32 = 32 ∨ (Rect.block (s := S128) S128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S4x128.size a ≤ S4x128.size a
  hwx1_11 : ∀ i : grid1.Coords, EltTy.bits .f32 = 32 ∨ (Rect.block (s := S4x128) S4x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S4.size a ≤ S4.size a
  hwx1_12 : ∀ i : grid1.Coords, EltTy.bits .f32 = 32 ∨ (Rect.block (s := S4) S4.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S8x512x4.size a ≤ S8x110592x4.size a
  hwx1_13 : ∀ i : grid1.Coords, EltTy.bits .f32 = 32 ∨ (Rect.block (s := S8x110592x4) S8x512x4.size (cc1_transform_13 i) (hinb1_13 i)).WholeWords (EltTy.packing .f32)

variable [Facts₀]

def dot_S8x128_S128x256_S8x256_1_0_0_1_n_n : DotDims S8x128 S128x256 S8x256 where
  lhsContracting := [1]
  rhsContracting := [0]
  lhsNonContracting := [0]
  rhsNonContracting := [1]
  lhsBatch := []
  rhsBatch := []
  wf := dot_S8x128_S128x256_S8x256_1_0_0_1_n_n_wf
def dot_S8x128_S128x8_S8x8_1_0_0_1_n_n : DotDims S8x128 S128x8 S8x8 where
  lhsContracting := [1]
  rhsContracting := [0]
  lhsNonContracting := [0]
  rhsNonContracting := [1]
  lhsBatch := []
  rhsBatch := []
  wf := dot_S8x128_S128x8_S8x8_1_0_0_1_n_n_wf
def dot_S512x3_S3x128_S512x128_1_0_0_1_n_n : DotDims S512x3 S3x128 S512x128 where
  lhsContracting := [1]
  rhsContracting := [0]
  lhsNonContracting := [0]
  rhsNonContracting := [1]
  lhsBatch := []
  rhsBatch := []
  wf := dot_S512x3_S3x128_S512x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x4_S4096x4_1_0_0_1_n_n : DotDims S4096x128 S128x4 S4096x4 where
  lhsContracting := [1]
  rhsContracting := [0]
  lhsNonContracting := [0]
  rhsNonContracting := [1]
  lhsBatch := []
  rhsBatch := []
  wf := dot_S4096x128_S128x4_S4096x4_1_0_0_1_n_n_wf

abbrev win0_0 : Pipeline.Window sig grid0 :=
  Pipeline.Window.ofSpec (Memref.whole main_v21) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S8x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S8x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S8x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S128x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S4x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S4.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v22) S8x512x4.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v24) S512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S8x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S8x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S8x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S8x4.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S8x4.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg3) S128x3.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg4) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg7) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg8) S128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg11) S4x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg12) S4.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v25) S8x512x4.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S8x128 : Shape := ⟨2, ![8, 128]⟩
abbrev S32x32x32x3 : Shape := ⟨4, ![32, 32, 32, 3]⟩
abbrev S48x48x48x3 : Shape := ⟨4, ![48, 48, 48, 3]⟩
abbrev S128x3 : Shape := ⟨2, ![128, 3]⟩
abbrev S128 : Shape := ⟨1, ![128]⟩
abbrev S256x128 : Shape := ⟨2, ![256, 128]⟩
abbrev S256 : Shape := ⟨1, ![256]⟩
abbrev S128x128 : Shape := ⟨2, ![128, 128]⟩
abbrev S4x128 : Shape := ⟨2, ![4, 128]⟩
abbrev S4 : Shape := ⟨1, ![4]⟩
abbrev S8 : Shape := ⟨1, ![8]⟩
abbrev S1x32768x3 : Shape := ⟨3, ![1, 32768, 3]⟩
abbrev S8x32768x3 : Shape := ⟨3, ![8, 32768, 3]⟩
abbrev S128x256 : Shape := ⟨2, ![128, 256]⟩
abbrev S8x256 : Shape := ⟨2, ![8, 256]⟩
abbrev S1x256 : Shape := ⟨2, ![1, 256]⟩
abbrev S8x32768x128 : Shape := ⟨3, ![8, 32768, 128]⟩
abbrev S1x1x128 : Shape := ⟨3, ![1, 1, 128]⟩
abbrev S8x1x128 : Shape := ⟨3, ![8, 1, 128]⟩
abbrev S_ : Shape := ⟨0, ![]⟩
abbrev S128x8 : Shape := ⟨2, ![128, 8]⟩
abbrev S8x8 : Shape := ⟨2, ![8, 8]⟩
abbrev S1x8 : Shape := ⟨2, ![1, 8]⟩
abbrev S8x4 : Shape := ⟨2, ![8, 4]⟩
abbrev S8x32768x4 : Shape := ⟨3, ![8, 32768, 4]⟩
abbrev S1x1x4 : Shape := ⟨3, ![1, 1, 4]⟩
abbrev S8x1x4 : Shape := ⟨3, ![8, 1, 4]⟩
abbrev S8x131072 : Shape := ⟨2, ![8, 131072]⟩
abbrev S1x110592x3 : Shape := ⟨3, ![1, 110592, 3]⟩
abbrev S8x110592x3 : Shape := ⟨3, ![8, 110592, 3]⟩
abbrev S8x110592x128 : Shape := ⟨3, ![8, 110592, 128]⟩
abbrev S8x110592x4 : Shape := ⟨3, ![8, 110592, 4]⟩
abbrev S8x442368 : Shape := ⟨2, ![8, 442368]⟩
abbrev S8x573440 : Shape := ⟨2, ![8, 573440]⟩

abbrev nBuf : Space → Nat
  | .hbm => 154
  | .vmem => 0
  | .smem => 0
  | _ => 0

abbrev hbmTy0_0 (i : Nat) : BufTy := match i % 128 with
  | 0 => ⟨S8x128, .f32⟩
  | 1 => ⟨S32x32x32x3, .f32⟩
  | 2 => ⟨S48x48x48x3, .f32⟩
  | 3 => ⟨S128x3, .f32⟩
  | 4 => ⟨S128, .f32⟩
  | 5 => ⟨S256x128, .f32⟩
  | 6 => ⟨S256, .f32⟩
  | 7 => ⟨S128x128, .f32⟩
  | 8 => ⟨S128, .f32⟩
  | 9 => ⟨S256x128, .f32⟩
  | 10 => ⟨S256, .f32⟩
  | 11 => ⟨S4x128, .f32⟩
  | 12 => ⟨S4, .f32⟩
  | 13 => ⟨S8x128, .f32⟩
  | 14 => ⟨S8, .f32⟩
  | 15 => ⟨S1x32768x3, .f32⟩
  | 16 => ⟨S8x32768x3, .f32⟩
  | 17 => ⟨S128x256, .f32⟩
  | 18 => ⟨S8x256, .f32⟩
  | 19 => ⟨S1x256, .f32⟩
  | 20 => ⟨S8x256, .f32⟩
  | 21 => ⟨S8x256, .f32⟩
  | 22 => ⟨S8x128, .f32⟩
  | 23 => ⟨S8x128, .f32⟩
  | 24 => ⟨S8x32768x128, .f32⟩
  | 25 => ⟨S1x1x128, .f32⟩
  | 26 => ⟨S8x32768x128, .f32⟩
  | 27 => ⟨S8x32768x128, .f32⟩
  | 28 => ⟨S8x1x128, .f32⟩
  | 29 => ⟨S_, .f32⟩
  | 30 => ⟨S8x1x128, .f32⟩
  | 31 => ⟨S8x1x128, .f32⟩
  | 32 => ⟨S8x32768x128, .f32⟩
  | 33 => ⟨S8x32768x128, .f32⟩
  | 34 => ⟨S8x1x128, .f32⟩
  | 35 => ⟨S8x32768x128, .f32⟩
  | 36 => ⟨S8x32768x128, .f32⟩
  | 37 => ⟨S_, .f32⟩
  | 38 => ⟨S8x32768x128, .f32⟩
  | 39 => ⟨S8x32768x128, .f32⟩
  | 40 => ⟨S128x256, .f32⟩
  | 41 => ⟨S8x256, .f32⟩
  | 42 => ⟨S1x256, .f32⟩
  | 43 => ⟨S8x256, .f32⟩
  | 44 => ⟨S8x256, .f32⟩
  | 45 => ⟨S8x128, .f32⟩
  | 46 => ⟨S8x128, .f32⟩
  | 47 => ⟨S8x32768x128, .f32⟩
  | 48 => ⟨S1x1x128, .f32⟩
  | 49 => ⟨S8x32768x128, .f32⟩
  | 50 => ⟨S8x32768x128, .f32⟩
  | 51 => ⟨S8x1x128, .f32⟩
  | 52 => ⟨S_, .f32⟩
  | 53 => ⟨S8x1x128, .f32⟩
  | 54 => ⟨S8x1x128, .f32⟩
  | 55 => ⟨S8x32768x128, .f32⟩
  | 56 => ⟨S8x32768x128, .f32⟩
  | 57 => ⟨S8x1x128, .f32⟩
  | 58 => ⟨S8x32768x128, .f32⟩
  | 59 => ⟨S8x32768x128, .f32⟩
  | 60 => ⟨S_, .f32⟩
  | 61 => ⟨S8x32768x128, .f32⟩
  | 62 => ⟨S8x32768x128, .f32⟩
  | 63 => ⟨S128x8, .f32⟩
  | 64 => ⟨S8x8, .f32⟩
  | 65 => ⟨S1x8, .f32⟩
  | 66 => ⟨S8x8, .f32⟩
  | 67 => ⟨S8x8, .f32⟩
  | 68 => ⟨S8x4, .f32⟩
  | 69 => ⟨S8x4, .f32⟩
  | 70 => ⟨S8x32768x4, .f32⟩
  | 71 => ⟨S1x1x4, .f32⟩
  | 72 => ⟨S8x32768x4, .f32⟩
  | 73 => ⟨S8x32768x4, .f32⟩
  | 74 => ⟨S8x1x4, .f32⟩
  | 75 => ⟨S_, .f32⟩
  | 76 => ⟨S8x1x4, .f32⟩
  | 77 => ⟨S8x1x4, .f32⟩
  | 78 => ⟨S8x32768x4, .f32⟩
  | 79 => ⟨S8x32768x4, .f32⟩
  | 80 => ⟨S8x1x4, .f32⟩
  | 81 => ⟨S8x32768x4, .f32⟩
  | 82 => ⟨S8x32768x4, .f32⟩
  | 83 => ⟨S8x131072, .f32⟩
  | 84 => ⟨S1x110592x3, .f32⟩
  | 85 => ⟨S8x110592x3, .f32⟩
  | 86 => ⟨S128x256, .f32⟩
  | 87 => ⟨S8x256, .f32⟩
  | 88 => ⟨S1x256, .f32⟩
  | 89 => ⟨S8x256, .f32⟩
  | 90 => ⟨S8x256, .f32⟩
  | 91 => ⟨S8x128, .f32⟩
  | 92 => ⟨S8x128, .f32⟩
  | 93 => ⟨S8x110592x128, .f32⟩
  | 94 => ⟨S1x1x128, .f32⟩
  | 95 => ⟨S8x110592x128, .f32⟩
  | 96 => ⟨S8x110592x128, .f32⟩
  | 97 => ⟨S8x1x128, .f32⟩
  | 98 => ⟨S_, .f32⟩
  | 99 => ⟨S8x1x128, .f32⟩
  | 100 => ⟨S8x1x128, .f32⟩
  | 101 => ⟨S8x110592x128, .f32⟩
  | 102 => ⟨S8x110592x128, .f32⟩
  | 103 => ⟨S8x1x128, .f32⟩
  | 104 => ⟨S8x110592x128, .f32⟩
  | 105 => ⟨S8x110592x128, .f32⟩
  | 106 => ⟨S_, .f32⟩
  | 107 => ⟨S8x110592x128, .f32⟩
  | 108 => ⟨S8x110592x128, .f32⟩
  | 109 => ⟨S128x256, .f32⟩
  | 110 => ⟨S8x256, .f32⟩
  | 111 => ⟨S1x256, .f32⟩
  | 112 => ⟨S8x256, .f32⟩
  | 113 => ⟨S8x256, .f32⟩
  | 114 => ⟨S8x128, .f32⟩
  | 115 => ⟨S8x128, .f32⟩
  | 116 => ⟨S8x110592x128, .f32⟩
  | 117 => ⟨S1x1x128, .f32⟩
  | 118 => ⟨S8x110592x128, .f32⟩
  | 119 => ⟨S8x110592x128, .f32⟩
  | 120 => ⟨S8x1x128, .f32⟩
  | 121 => ⟨S_, .f32⟩
  | 122 => ⟨S8x1x128, .f32⟩
  | 123 => ⟨S8x1x128, .f32⟩
  | 124 => ⟨S8x110592x128, .f32⟩
  | 125 => ⟨S8x110592x128, .f32⟩
  | 126 => ⟨S8x1x128, .f32⟩
  | 127 => ⟨S8x110592x128, .f32⟩
  | _ => ⟨S8x128, .f32⟩

abbrev hbmTy0_1 (i : Nat) : BufTy := match i % 128 with
  | 0 => ⟨S8x110592x128, .f32⟩
  | 1 => ⟨S_, .f32⟩
  | 2 => ⟨S8x110592x128, .f32⟩
  | 3 => ⟨S8x110592x128, .f32⟩
  | 4 => ⟨S128x8, .f32⟩
  | 5 => ⟨S8x8, .f32⟩
  | 6 => ⟨S1x8, .f32⟩
  | 7 => ⟨S8x8, .f32⟩
  | 8 => ⟨S8x8, .f32⟩
  | 9 => ⟨S8x4, .f32⟩
  | 10 => ⟨S8x4, .f32⟩
  | 11 => ⟨S8x110592x4, .f32⟩
  | 12 => ⟨S1x1x4, .f32⟩
  | 13 => ⟨S8x110592x4, .f32⟩
  | 14 => ⟨S8x110592x4, .f32⟩
  | 15 => ⟨S8x1x4, .f32⟩
  | 16 => ⟨S_, .f32⟩
  | 17 => ⟨S8x1x4, .f32⟩
  | 18 => ⟨S8x1x4, .f32⟩
  | 19 => ⟨S8x110592x4, .f32⟩
  | 20 => ⟨S8x110592x4, .f32⟩
  | 21 => ⟨S8x1x4, .f32⟩
  | 22 => ⟨S8x110592x4, .f32⟩
  | 23 => ⟨S8x110592x4, .f32⟩
  | 24 => ⟨S8x442368, .f32⟩
  | 25 => ⟨S8x573440, .f32⟩
  | _ => ⟨S8x128, .f32⟩

abbrev hbmTy (i : Nat) : BufTy := match i / 128 with
  | 0 => hbmTy0_0 i
  | 1 => hbmTy0_1 i
  | _ => ⟨S8x128, .f32⟩

abbrev bufTy : (tb : Table) → Fin (tcTables nBuf tb) → BufTy
  | .hbm, ⟨i, _⟩ => hbmTy i
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call0_cst : Ref sig .tc := ⟨.hbm, 37, rfl⟩
abbrev main_call0_v0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_cst : Ref sig .tc := ⟨.hbm, 60, rfl⟩
abbrev main_call1_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_1 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_2 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_call2_cst : Ref sig .tc := ⟨.hbm, 106, rfl⟩
abbrev main_call2_v0 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_3 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_call3_cst : Ref sig .tc := ⟨.hbm, 129, rfl⟩
abbrev main_call3_v0 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_4 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩

abbrev nD : Nat := 1
abbrev τ : Topo := Topo.v7x

variable {F : FTy → Type} [FloatOps F]

class Facts₀ : Prop where
  shapeCasts_S32x32x32x3_S1x32768x3 : S32x32x32x3.ShapeCasts S1x32768x3
  bcast_S1x32768x3_S8x32768x3_0_1_2 : S1x32768x3.BroadcastsInDim S8x32768x3 (![0, 1, 2] : Fin 3 → Fin S8x32768x3.rank)
  transposes_S256x128_S128x256_1_0 : S256x128.Transposes [1, 0] S128x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  slices_S8x256_S8x128_0_0 : S8x256.Slices ![0, 0] S8x128
  slices_S8x256_S8x128_0_128 : S8x256.Slices ![0, 128] S8x128
  bcast_S128_S1x1x128_2 : S128.BroadcastsInDim S1x1x128 (![2] : Fin 1 → Fin S1x1x128.rank)
  bcast_S1x1x128_S8x32768x128_0_1_2 : S1x1x128.BroadcastsInDim S8x32768x128 (![0, 1, 2] : Fin 3 → Fin S8x32768x128.rank)
  bcast_S8x128_S8x1x128_0_2 : S8x128.BroadcastsInDim S8x1x128 (![0, 2] : Fin 2 → Fin S8x1x128.rank)
  bcast_S_S8x1x128 : S_.BroadcastsInDim S8x1x128 (![] : Fin 0 → Fin S8x1x128.rank)
  bcast_S8x1x128_S8x32768x128_0_1_2 : S8x1x128.BroadcastsInDim S8x32768x128 (![0, 1, 2] : Fin 3 → Fin S8x32768x128.rank)
  bcast_S_S8x32768x128 : S_.BroadcastsInDim S8x32768x128 (![] : Fin 0 → Fin S8x32768x128.rank)
  transposes_S8x128_S128x8_1_0 : S8x128.Transposes [1, 0] S128x8
  bcast_S8_S1x8_1 : S8.BroadcastsInDim S1x8 (![1] : Fin 1 → Fin S1x8.rank)
  bcast_S1x8_S8x8_0_1 : S1x8.BroadcastsInDim S8x8 (![0, 1] : Fin 2 → Fin S8x8.rank)
  slices_S8x8_S8x4_0_0 : S8x8.Slices ![0, 0] S8x4
  slices_S8x8_S8x4_0_4 : S8x8.Slices ![0, 4] S8x4
  bcast_S4_S1x1x4_2 : S4.BroadcastsInDim S1x1x4 (![2] : Fin 1 → Fin S1x1x4.rank)
  bcast_S1x1x4_S8x32768x4_0_1_2 : S1x1x4.BroadcastsInDim S8x32768x4 (![0, 1, 2] : Fin 3 → Fin S8x32768x4.rank)
  bcast_S8x4_S8x1x4_0_2 : S8x4.BroadcastsInDim S8x1x4 (![0, 2] : Fin 2 → Fin S8x1x4.rank)
  bcast_S_S8x1x4 : S_.BroadcastsInDim S8x1x4 (![] : Fin 0 → Fin S8x1x4.rank)
  bcast_S8x1x4_S8x32768x4_0_1_2 : S8x1x4.BroadcastsInDim S8x32768x4 (![0, 1, 2] : Fin 3 → Fin S8x32768x4.rank)
  shapeCasts_S8x32768x4_S8x131072 : S8x32768x4.ShapeCasts S8x131072
  shapeCasts_S48x48x48x3_S1x110592x3 : S48x48x48x3.ShapeCasts S1x110592x3
  bcast_S1x110592x3_S8x110592x3_0_1_2 : S1x110592x3.BroadcastsInDim S8x110592x3 (![0, 1, 2] : Fin 3 → Fin S8x110592x3.rank)
  bcast_S1x1x128_S8x110592x128_0_1_2 : S1x1x128.BroadcastsInDim S8x110592x128 (![0, 1, 2] : Fin 3 → Fin S8x110592x128.rank)
  bcast_S8x1x128_S8x110592x128_0_1_2 : S8x1x128.BroadcastsInDim S8x110592x128 (![0, 1, 2] : Fin 3 → Fin S8x110592x128.rank)
  bcast_S_S8x110592x128 : S_.BroadcastsInDim S8x110592x128 (![] : Fin 0 → Fin S8x110592x128.rank)
  bcast_S1x1x4_S8x110592x4_0_1_2 : S1x1x4.BroadcastsInDim S8x110592x4 (![0, 1, 2] : Fin 3 → Fin S8x110592x4.rank)
  bcast_S8x1x4_S8x110592x4_0_1_2 : S8x1x4.BroadcastsInDim S8x110592x4 (![0, 1, 2] : Fin 3 → Fin S8x110592x4.rank)
  shapeCasts_S8x110592x4_S8x442368 : S8x110592x4.ShapeCasts S8x442368
  concatenates_S8x131072_S8x442368_S8x573440_d1 : Shape.Concatenates [S8x131072, S8x442368] S8x573440 1
  dot_S8x128_S128x256_S8x256_1_0_0_1_n_n_wf : DotDims.WF S8x128 S128x256 S8x256 [1] [0] [0] [1] [] []
  dot_S8x32768x3_S128x3_S8x32768x128_2_1_01_0_n_n_wf : DotDims.WF S8x32768x3 S128x3 S8x32768x128 [2] [1] [0, 1] [0] [] []
  dot_S8x32768x128_S128x128_S8x32768x128_2_1_01_0_n_n_wf : DotDims.WF S8x32768x128 S128x128 S8x32768x128 [2] [1] [0, 1] [0] [] []
  dot_S8x128_S128x8_S8x8_1_0_0_1_n_n_wf : DotDims.WF S8x128 S128x8 S8x8 [1] [0] [0] [1] [] []
  dot_S8x32768x128_S4x128_S8x32768x4_2_1_01_0_n_n_wf : DotDims.WF S8x32768x128 S4x128 S8x32768x4 [2] [1] [0, 1] [0] [] []
  dot_S8x110592x3_S128x3_S8x110592x128_2_1_01_0_n_n_wf : DotDims.WF S8x110592x3 S128x3 S8x110592x128 [2] [1] [0, 1] [0] [] []
  dot_S8x110592x128_S128x128_S8x110592x128_2_1_01_0_n_n_wf : DotDims.WF S8x110592x128 S128x128 S8x110592x128 [2] [1] [0, 1] [0] [] []
  dot_S8x110592x128_S4x128_S8x110592x4_2_1_01_0_n_n_wf : DotDims.WF S8x110592x128 S4x128 S8x110592x4 [2] [1] [0, 1] [0] [] []

variable [Facts₀]

def dot_S8x128_S128x256_S8x256_1_0_0_1_n_n : DotDims S8x128 S128x256 S8x256 where
  lhsContracting := [1]
  rhsContracting := [0]
  lhsNonContracting := [0]
  rhsNonContracting := [1]
  lhsBatch := []
  rhsBatch := []
  wf := dot_S8x128_S128x256_S8x256_1_0_0_1_n_n_wf
def dot_S8x32768x3_S128x3_S8x32768x128_2_1_01_0_n_n : DotDims S8x32768x3 S128x3 S8x32768x128 where
  lhsContracting := [2]
  rhsContracting := [1]
  lhsNonContracting := [0, 1]
  rhsNonContracting := [0]
  lhsBatch := []
  rhsBatch := []
  wf := dot_S8x32768x3_S128x3_S8x32768x128_2_1_01_0_n_n_wf
def dot_S8x32768x128_S128x128_S8x32768x128_2_1_01_0_n_n : DotDims S8x32768x128 S128x128 S8x32768x128 where
  lhsContracting := [2]
  rhsContracting := [1]
  lhsNonContracting := [0, 1]
  rhsNonContracting := [0]
  lhsBatch := []
  rhsBatch := []
  wf := dot_S8x32768x128_S128x128_S8x32768x128_2_1_01_0_n_n_wf
def dot_S8x128_S128x8_S8x8_1_0_0_1_n_n : DotDims S8x128 S128x8 S8x8 where
  lhsContracting := [1]
  rhsContracting := [0]
  lhsNonContracting := [0]
  rhsNonContracting := [1]
  lhsBatch := []
  rhsBatch := []
  wf := dot_S8x128_S128x8_S8x8_1_0_0_1_n_n_wf
def dot_S8x32768x128_S4x128_S8x32768x4_2_1_01_0_n_n : DotDims S8x32768x128 S4x128 S8x32768x4 where
  lhsContracting := [2]
  rhsContracting := [1]
  lhsNonContracting := [0, 1]
  rhsNonContracting := [0]
  lhsBatch := []
  rhsBatch := []
  wf := dot_S8x32768x128_S4x128_S8x32768x4_2_1_01_0_n_n_wf
def dot_S8x110592x3_S128x3_S8x110592x128_2_1_01_0_n_n : DotDims S8x110592x3 S128x3 S8x110592x128 where
  lhsContracting := [2]
  rhsContracting := [1]
  lhsNonContracting := [0, 1]
  rhsNonContracting := [0]
  lhsBatch := []
  rhsBatch := []
  wf := dot_S8x110592x3_S128x3_S8x110592x128_2_1_01_0_n_n_wf
def dot_S8x110592x128_S128x128_S8x110592x128_2_1_01_0_n_n : DotDims S8x110592x128 S128x128 S8x110592x128 where
  lhsContracting := [2]
  rhsContracting := [1]
  lhsNonContracting := [0, 1]
  rhsNonContracting := [0]
  lhsBatch := []
  rhsBatch := []
  wf := dot_S8x110592x128_S128x128_S8x110592x128_2_1_01_0_n_n_wf
def dot_S8x110592x128_S4x128_S8x110592x4_2_1_01_0_n_n : DotDims S8x110592x128 S4x128 S8x110592x4 where
  lhsContracting := [2]
  rhsContracting := [1]
  lhsNonContracting := [0, 1]
  rhsNonContracting := [0]
  lhsBatch := []
  rhsBatch := []
  wf := dot_S8x110592x128_S4x128_S8x110592x4_2_1_01_0_n_n_wf

class Facts : Prop extends Facts₀ where

variable [Facts]
-- ==== Proof.KFold.lean ====
/-
  The buffers of the kernel's program at each boundary of its run, read back to the launch memory.

  @main is: a stretch of host operations (the six scale and shift tables, each a half of `z · Mᵀ + mb`, and the first
  grid's points laid out as rows); region 0; a stretch (region 0's output flattened, the second grid's points laid out
  as rows); region 1; a last stretch (region 1's output flattened, and the two flattened outputs joined along the
  columns). Neither region writes anything but its own output array, and no host operation writes an argument or a
  table twice, so

    * when region 0 is entered its point array is the first grid reshaped, its six tables are the host's terms — the
      very operations the reference applies, so they are named by the reference's stages and never opened — and its
      weights and biases are the arguments as launched;
    * when region 1 is entered the same holds with the second grid: the tables and the arguments have come through
      region 0 untouched (an input window's array is never written back);
    * the result array is the join of the two regions' output arrays, each flattened.
-/
import proofs.«177964_j13537736917463_1_alg».proof.Proof.Gen.KernelIdeal.Frame
import proofs.«177964_j13537736917463_1_alg».proof.Proof.Gen.ReferenceIdeal.Read
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The arguments as launched, each at its literal type -/
abbrev a0 (c : Dev nD) : Vec Ideal S8x128 .f32 := m ((c : Thread nD τ).loc main_arg0)
abbrev a1 (c : Dev nD) : Vec Ideal S32x32x32x3 .f32 := m ((c : Thread nD τ).loc main_arg1)
abbrev a2 (c : Dev nD) : Vec Ideal S48x48x48x3 .f32 := m ((c : Thread nD τ).loc main_arg2)
abbrev a3 (c : Dev nD) : Vec Ideal S128x3 .f32 := m ((c : Thread nD τ).loc main_arg3)
abbrev a4 (c : Dev nD) : Vec Ideal S128 .f32 := m ((c : Thread nD τ).loc main_arg4)
abbrev a5 (c : Dev nD) : Vec Ideal S256x128 .f32 := m ((c : Thread nD τ).loc main_arg5)
abbrev a6 (c : Dev nD) : Vec Ideal S256 .f32 := m ((c : Thread nD τ).loc main_arg6)
abbrev a7 (c : Dev nD) : Vec Ideal S128x128 .f32 := m ((c : Thread nD τ).loc main_arg7)
abbrev a8 (c : Dev nD) : Vec Ideal S128 .f32 := m ((c : Thread nD τ).loc main_arg8)
abbrev a9 (c : Dev nD) : Vec Ideal S256x128 .f32 := m ((c : Thread nD τ).loc main_arg9)
abbrev a10 (c : Dev nD) : Vec Ideal S256 .f32 := m ((c : Thread nD τ).loc main_arg10)
abbrev a11 (c : Dev nD) : Vec Ideal S4x128 .f32 := m ((c : Thread nD τ).loc main_arg11)
abbrev a12 (c : Dev nD) : Vec Ideal S4 .f32 := m ((c : Thread nD τ).loc main_arg12)
abbrev a13 (c : Dev nD) : Vec Ideal S8x128 .f32 := m ((c : Thread nD τ).loc main_arg13)
abbrev a14 (c : Dev nD) : Vec Ideal S8 .f32 := m ((c : Thread nD τ).loc main_arg14)

/-! ## Region 0's entry -/

/-- The first grid's points as rows of three features. -/
theorem V1_xs (c : Dev nD) :
    (V1 m ρ c main_v21 : Vec Ideal S32768x3 .f32) = shapeCast S32768x3 (a1 m c) shapeCasts_S32x32x32x3_S32768x3 := by
  show StableHlo.after hostOps0 (W0 m ρ c) (Proc.devRef .tc main_v21) = _
  after_results
  rfl

/-- Table `s0` at region 0's entry is the host's term, the reference's stage of the same operations. -/
theorem V1_s0 (c : Dev nD) :
    (V1 m ρ c main_v5 : Vec Ideal S8x128 .f32) = Cert.ReferenceIdeal.Read.val_main_v7 (F := Ideal) (a0 m c) (a5 m c) (a6 m c) := by
  show StableHlo.after hostOps0 (W0 m ρ c) (Proc.devRef .tc main_v5) = _
  after_results
  rfl

/-- Table `t0` at region 0's entry is the host's term, the reference's stage of the same operations. -/
theorem V1_t0 (c : Dev nD) :
    (V1 m ρ c main_v6 : Vec Ideal S8x128 .f32) = Cert.ReferenceIdeal.Read.val_main_v8 (F := Ideal) (a0 m c) (a5 m c) (a6 m c) := by
  show StableHlo.after hostOps0 (W0 m ρ c) (Proc.devRef .tc main_v6) = _
  after_results
  rfl

/-- Table `s1` at region 0's entry is the host's term, the reference's stage of the same operations. -/
theorem V1_s1 (c : Dev nD) :
    (V1 m ρ c main_v12 : Vec Ideal S8x128 .f32) = Cert.ReferenceIdeal.Read.val_main_v27 (F := Ideal) (a0 m c) (a9 m c) (a10 m c) := by
  show StableHlo.after hostOps0 (W0 m ρ c) (Proc.devRef .tc main_v12) = _
  after_results
  rfl

/-- Table `t1` at region 0's entry is the host's term, the reference's stage of the same operations. -/
theorem V1_t1 (c : Dev nD) :
    (V1 m ρ c main_v13 : Vec Ideal S8x128 .f32) = Cert.ReferenceIdeal.Read.val_main_v28 (F := Ideal) (a0 m c) (a9 m c) (a10 m c) := by
  show StableHlo.after hostOps0 (W0 m ρ c) (Proc.devRef .tc main_v13) = _
  after_results
  rfl

/-- Table `s2` at region 0's entry is the host's term, the reference's stage of the same operations. -/
theorem V1_s2 (c : Dev nD) :
    (V1 m ρ c main_v19 : Vec Ideal S8x4 .f32) = Cert.ReferenceIdeal.Read.val_main_v47 (F := Ideal) (a0 m c) (a13 m c) (a14 m c) := by
  show StableHlo.after hostOps0 (W0 m ρ c) (Proc.devRef .tc main_v19) = _
  after_results
  rfl

/-- Table `t2` at region 0's entry is the host's term, the reference's stage of the same operations. -/
theorem V1_t2 (c : Dev nD) :
    (V1 m ρ c main_v20 : Vec Ideal S8x4 .f32) = Cert.ReferenceIdeal.Read.val_main_v48 (F := Ideal) (a0 m c) (a13 m c) (a14 m c) := by
  show StableHlo.after hostOps0 (W0 m ρ c) (Proc.devRef .tc main_v20) = _
  after_results
  rfl

theorem V1_w0 (c : Dev nD) : (V1 m ρ c main_arg3 : Vec Ideal S128x3 .f32) = a3 m c :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem V1_c0 (c : Dev nD) : (V1 m ρ c main_arg4 : Vec Ideal S128 .f32) = a4 m c :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem V1_w1 (c : Dev nD) : (V1 m ρ c main_arg7 : Vec Ideal S128x128 .f32) = a7 m c :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem V1_c1 (c : Dev nD) : (V1 m ρ c main_arg8 : Vec Ideal S128 .f32) = a8 m c :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem V1_w2 (c : Dev nD) : (V1 m ρ c main_arg11 : Vec Ideal S4x128 .f32) = a11 m c :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem V1_c2 (c : Dev nD) : (V1 m ρ c main_arg12 : Vec Ideal S4 .f32) = a12 m c :=
  StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

/-! ## Region 1's entry -/

/-- A buffer the middle stretch does not write holds at region 1's entry what region 0 left in it. -/
theorem V3_of_not_written (c : Dev nD) (b : Ref sig .tc)
    (h : ∀ op ∈ (hostOps1 : List (HloOp τ sig (Elt Ideal))), Proc.devRef .tc b ∉ op.writes) :
    V3 m ρ c b = W2 m ρ c (Proc.devRef .tc b) :=
  StableHlo.after_of_forall_not_mem _ _ h

/-- The second grid's points as rows of three features. -/
theorem V3_xs (c : Dev nD) :
    (V3 m ρ c main_v24 : Vec Ideal S110592x3 .f32) = shapeCast S110592x3 (a2 m c) shapeCasts_S48x48x48x3_S110592x3 := by
  show StableHlo.after hostOps1 (W2 m ρ c) (Proc.devRef .tc main_v24) = _
  after_results
  have e : W2 m ρ c (Proc.devRef .tc main_arg2) = a2 m c :=
    (W2_of_ne m ρ c main_arg2 (by decide)).trans (StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))
  rw [e]
  rfl

/-- Region 0 reads `s0` through an input window and the middle stretch does not write it: region 1 finds it as region 0 did. -/
theorem V3_s0 (c : Dev nD) : (V3 m ρ c main_v5 : Vec Ideal S8x128 .f32) = V1 m ρ c main_v5 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans
    ((W2_arr m ρ c 1).trans (((dat0 (V1 m ρ) c).arrAt_in 1 rfl _).trans (A_eq0 (V1 m ρ) c 1)))

/-- Region 0 reads `t0` through an input window and the middle stretch does not write it: region 1 finds it as region 0 did. -/
theorem V3_t0 (c : Dev nD) : (V3 m ρ c main_v6 : Vec Ideal S8x128 .f32) = V1 m ρ c main_v6 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans
    ((W2_arr m ρ c 2).trans (((dat0 (V1 m ρ) c).arrAt_in 2 rfl _).trans (A_eq0 (V1 m ρ) c 2)))

/-- Region 0 reads `s1` through an input window and the middle stretch does not write it: region 1 finds it as region 0 did. -/
theorem V3_s1 (c : Dev nD) : (V3 m ρ c main_v12 : Vec Ideal S8x128 .f32) = V1 m ρ c main_v12 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans
    ((W2_arr m ρ c 3).trans (((dat0 (V1 m ρ) c).arrAt_in 3 rfl _).trans (A_eq0 (V1 m ρ) c 3)))

/-- Region 0 reads `t1` through an input window and the middle stretch does not write it: region 1 finds it as region 0 did. -/
theorem V3_t1 (c : Dev nD) : (V3 m ρ c main_v13 : Vec Ideal S8x128 .f32) = V1 m ρ c main_v13 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans
    ((W2_arr m ρ c 4).trans (((dat0 (V1 m ρ) c).arrAt_in 4 rfl _).trans (A_eq0 (V1 m ρ) c 4)))

/-- Region 0 reads `s2` through an input window and the middle stretch does not write it: region 1 finds it as region 0 did. -/
theorem V3_s2 (c : Dev nD) : (V3 m ρ c main_v19 : Vec Ideal S8x4 .f32) = V1 m ρ c main_v19 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans
    ((W2_arr m ρ c 5).trans (((dat0 (V1 m ρ) c).arrAt_in 5 rfl _).trans (A_eq0 (V1 m ρ) c 5)))

/-- Region 0 reads `t2` through an input window and the middle stretch does not write it: region 1 finds it as region 0 did. -/
theorem V3_t2 (c : Dev nD) : (V3 m ρ c main_v20 : Vec Ideal S8x4 .f32) = V1 m ρ c main_v20 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans
    ((W2_arr m ρ c 6).trans (((dat0 (V1 m ρ) c).arrAt_in 6 rfl _).trans (A_eq0 (V1 m ρ) c 6)))

/-- Region 0 reads `w0` through an input window and the middle stretch does not write it: region 1 finds it as region 0 did. -/
theorem V3_w0 (c : Dev nD) : (V3 m ρ c main_arg3 : Vec Ideal S128x3 .f32) = V1 m ρ c main_arg3 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans
    ((W2_arr m ρ c 7).trans (((dat0 (V1 m ρ) c).arrAt_in 7 rfl _).trans (A_eq0 (V1 m ρ) c 7)))

/-- Region 0 reads `c0` through an input window and the middle stretch does not write it: region 1 finds it as region 0 did. -/
theorem V3_c0 (c : Dev nD) : (V3 m ρ c main_arg4 : Vec Ideal S128 .f32) = V1 m ρ c main_arg4 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans
    ((W2_arr m ρ c 8).trans (((dat0 (V1 m ρ) c).arrAt_in 8 rfl _).trans (A_eq0 (V1 m ρ) c 8)))

/-- Region 0 reads `w1` through an input window and the middle stretch does not write it: region 1 finds it as region 0 did. -/
theorem V3_w1 (c : Dev nD) : (V3 m ρ c main_arg7 : Vec Ideal S128x128 .f32) = V1 m ρ c main_arg7 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans
    ((W2_arr m ρ c 9).trans (((dat0 (V1 m ρ) c).arrAt_in 9 rfl _).trans (A_eq0 (V1 m ρ) c 9)))

/-- Region 0 reads `c1` through an input window and the middle stretch does not write it: region 1 finds it as region 0 did. -/
theorem V3_c1 (c : Dev nD) : (V3 m ρ c main_arg8 : Vec Ideal S128 .f32) = V1 m ρ c main_arg8 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans
    ((W2_arr m ρ c 10).trans (((dat0 (V1 m ρ) c).arrAt_in 10 rfl _).trans (A_eq0 (V1 m ρ) c 10)))

/-- Region 0 reads `w2` through an input window and the middle stretch does not write it: region 1 finds it as region 0 did. -/
theorem V3_w2 (c : Dev nD) : (V3 m ρ c main_arg11 : Vec Ideal S4x128 .f32) = V1 m ρ c main_arg11 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans
    ((W2_arr m ρ c 11).trans (((dat0 (V1 m ρ) c).arrAt_in 11 rfl _).trans (A_eq0 (V1 m ρ) c 11)))

/-- Region 0 reads `c2` through an input window and the middle stretch does not write it: region 1 finds it as region 0 did. -/
theorem V3_c2 (c : Dev nD) : (V3 m ρ c main_arg12 : Vec Ideal S4 .f32) = V1 m ρ c main_arg12 :=
  (StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))).trans
    ((W2_arr m ρ c 12).trans (((dat0 (V1 m ρ) c).arrAt_in 12 rfl _).trans (A_eq0 (V1 m ρ) c 12)))

/-! ## The result -/

/-- Region 0's output array after its run, at its literal type. -/
abbrev out0 (c : Dev nD) : Vec Ideal S8x32768x4 .f32 := (dat0 (V1 m ρ) c).arrAt 13 cfg0.N
/-- Region 1's output array after its run, at its literal type. -/
abbrev out1 (c : Dev nD) : Vec Ideal S8x110592x4 .f32 := (dat1 (V3 m ρ) c).arrAt 13 cfg1.N

/-- Region 0's flattened output comes through region 1 untouched. -/
theorem W4_flat0 (c : Dev nD) :
    (W4 m ρ c (Proc.devRef .tc main_v23) : Vec Ideal S8x131072 .f32)
      = shapeCast S8x131072 (out0 m ρ c) shapeCasts_S8x32768x4_S8x131072 := by
  refine (W4_of_ne m ρ c main_v23 (by decide)).trans ?_
  show StableHlo.after hostOps1 (W2 m ρ c) (Proc.devRef .tc main_v23) = _
  after_results
  rw [show W2 m ρ c (Proc.devRef .tc main_v22) = out0 m ρ c from W2_arr m ρ c 13]
  rfl

/-- The result array: the two regions' outputs, each flattened, joined along the columns. -/
theorem W5_result (c : Dev nD) :
    (W5 m ρ c (Proc.devRef .tc main_v27) : Vec Ideal S8x573440 .f32)
      = concatenate S8x573440 1 [⟨S8x131072, shapeCast S8x131072 (out0 m ρ c) shapeCasts_S8x32768x4_S8x131072⟩,
          ⟨S8x442368, shapeCast S8x442368 (out1 m ρ c) shapeCasts_S8x110592x4_S8x442368⟩]
          concatenates_S8x131072_S8x442368_S8x573440_d1 := by
  show StableHlo.after hostOps2 (W4 m ρ c) (Proc.devRef .tc main_v27) = _
  after_results
  rw [show W4 m ρ c (Proc.devRef .tc main_v25) = out1 m ρ c from W4_arr m ρ c 13, W4_flat0 m ρ c]
  rfl

end Cert.KernelIdeal.Fold

end
-- ==== Proof.Row.lean ====
/-
  One point of a FiLM-modulated three-layer perceptron, over the extended reals.

  A point with three features `x` is carried, for batch row `b`, through

      h₀(o) = max (((∑ₖ x(k) · W₀(o, k)) + b₀(o)) · (1 + s₀(b, o)) + t₀(b, o)) 0        (128 units)
      h₁(o) = max (((∑ₖ h₀(k) · W₁(o, k)) + b₁(o)) · (1 + s₁(b, o)) + t₁(b, o)) 0        (128 units)
      y(f)  =      ((∑ₖ h₁(k) · W₂(f, k)) + b₂(f)) · (1 + s₂(b, f)) + t₂(b, f)           (4 outputs)

  where the scales `s` and the shifts `t` are given per batch row. The value of a point depends on no other
  point, so a grid of points of any size is the same function applied point by point. The words `1` and `0`
  are kept as the binary patterns both programs print.

  Also here: the position in a `[s, s, s, 3]` grid of feature `d` of the `p`-th point in row-major order.
-/
import Idealize.ShloMosaic.PureOps.Ideal
import Idealize.ShloMosaic.Lib.ValueIdx

noncomputable section

namespace Cert.Film

open Idealize.ShloMosaic Idealize.ShloMosaic.ValueIdx

/-- The word both programs add to a scale. -/
def one : EReal := Ideal.ofBits .f32 0x3F800000#32
/-- The word both programs clamp against. -/
def zero : EReal := Ideal.ofBits .f32 0x00000000#32

/-- A value scaled by `1 + s` and shifted by `t`. -/
def film (a s t : EReal) : EReal := a * (one + s) + t
/-- The positive part. -/
def relu (a : EReal) : EReal := max a zero
/-- One unit of a linear layer: the activations against the unit's weights, plus its bias. -/
def lin {K : Nat} (h w : Fin K → EReal) (b : EReal) : EReal := (∑ k : Fin K, h k * w k) + b

abbrev A8x128 : Type := (⟨2, ![8, 128]⟩ : Shape).Idx → EReal
abbrev A8x4 : Type := (⟨2, ![8, 4]⟩ : Shape).Idx → EReal
abbrev A128x3 : Type := (⟨2, ![128, 3]⟩ : Shape).Idx → EReal
abbrev A128x128 : Type := (⟨2, ![128, 128]⟩ : Shape).Idx → EReal
abbrev A4x128 : Type := (⟨2, ![4, 128]⟩ : Shape).Idx → EReal
abbrev A128 : Type := (⟨1, ![128]⟩ : Shape).Idx → EReal
abbrev A4 : Type := (⟨1, ![4]⟩ : Shape).Idx → EReal

/-- Unit `o` of the first hidden layer, for batch row `b`. -/
def hid0 (x : Fin 3 → EReal) (s0 t0 : A8x128) (W0 : A128x3) (b0 : A128) (b : Fin 8) (o : Fin 128) : EReal :=
  relu (film (lin x (fun k => W0 (ix2 o k)) (b0 (ix1 o))) (s0 (ix2 b o)) (t0 (ix2 b o)))

/-- Unit `o` of the second hidden layer, for batch row `b`. -/
def hid1 (x : Fin 3 → EReal) (s0 t0 s1 t1 : A8x128) (W0 : A128x3) (b0 : A128) (W1 : A128x128) (b1 : A128)
    (b : Fin 8) (o : Fin 128) : EReal :=
  relu (film (lin (hid0 x s0 t0 W0 b0 b) (fun k => W1 (ix2 o k)) (b1 (ix1 o))) (s1 (ix2 b o)) (t1 (ix2 b o)))

/-- Output `f` of the point, for batch row `b`. -/
def outAt (x : Fin 3 → EReal) (s0 t0 s1 t1 : A8x128) (s2 t2 : A8x4) (W0 : A128x3) (b0 : A128) (W1 : A128x128) (b1 : A128)
    (W2 : A4x128) (b2 : A4) (b : Fin 8) (f : Fin 4) : EReal :=
  film (lin (hid1 x s0 t0 s1 t1 W0 b0 W1 b1 b) (fun k => W2 (ix2 f k)) (b2 (ix1 f))) (s2 (ix2 b f)) (t2 (ix2 b f))

/-- Feature `d` of point `p` of a `[32, 32, 32, 3]` grid listed in row-major order. -/
def cell32 (p : Fin 32768) (d : Fin 3) : (⟨4, ![32, 32, 32, 3]⟩ : Shape).Idx :=
  ix4 ⟨p.val / 1024, by have := p.isLt; omega⟩ ⟨p.val / 32 % 32, Nat.mod_lt _ (by decide)⟩ ⟨p.val % 32, Nat.mod_lt _ (by decide)⟩ d

/-- Feature `d` of point `p` of a `[48, 48, 48, 3]` grid listed in row-major order. -/
def cell48 (p : Fin 110592) (d : Fin 3) : (⟨4, ![48, 48, 48, 3]⟩ : Shape).Idx :=
  ix4 ⟨p.val / 2304, by have := p.isLt; omega⟩ ⟨p.val / 48 % 48, Nat.mod_lt _ (by decide)⟩ ⟨p.val % 48, Nat.mod_lt _ (by decide)⟩ d

theorem cell32_rowMajor (p : Fin 32768) (d : Fin 3) :
    (((((cell32 p d) 0).val * 32 + ((cell32 p d) 1).val) * 32 + ((cell32 p d) 2).val) * 3 + ((cell32 p d) 3).val) = p.val * 3 + d.val := by
  show ((p.val / 1024 * 32 + p.val / 32 % 32) * 32 + p.val % 32) * 3 + d.val = _
  omega

theorem cell48_rowMajor (p : Fin 110592) (d : Fin 3) :
    (((((cell48 p d) 0).val * 48 + ((cell48 p d) 1).val) * 48 + ((cell48 p d) 2).val) * 3 + ((cell48 p d) 3).val) = p.val * 3 + d.val := by
  show ((p.val / 2304 * 48 + p.val / 48 % 48) * 48 + p.val % 48) * 3 + d.val = _
  omega

end Cert.Film

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.KPay.lean ====
/-
  What one grid point of either region stores, read at an element.

  The body takes a block of 512 points with three features each, the six scale and shift tables and the three
  layers' weights and biases, and stores an `[8, 512, 4]` block. Its element `(b, r, f)` is output `f` of the
  perceptron at the block's point `r` for batch row `b`: each matrix product into the zero word is the sum over
  the contracted coordinate, a change of float format is the identity, the bias rows and the per-batch tables
  are broadcast along the points, and the `[8, 512, ·]` and `[4096, ·]` layouts list the same elements, row
  `b · 512 + r` of the second being `(b, r)` of the first.

  The file has three parts. First the layouts, for any sizes: a `[N, C]` array and its `[A, B, C]` recast list the
  same elements when row `p` is `a · B + b`; a table `[A, C]` recast to `[A, 1, C]` and broadcast to `[A, B, C]`
  reads `(a, c)` at every `(a, b, c)`; a `[1, B, C]` array broadcast to `[A, B, C]` reads `(0, b, c)`. Then the
  two building blocks every layer is made of: a linear layer (the product of the activations with the transposed
  weights into the zero word, plus the broadcast bias row) is `lin` of the row of activations and the row of
  weights; a scale by one plus a per-batch table and a shift by another is `film`. Last the body itself: the
  first two layers, then the third.
-/
import proofs.«177964_j13537736917463_1_alg».proof.Proof.Gen.KernelIdeal.Skeleton
import proofs.«177964_j13537736917463_1_alg».proof.Proof.Row
import proofs.«177964_j13537736917463_1_alg».proof.Proof.LibRowwise
import Idealize.ShloMosaic.Lib.Pipeline.Value
import Idealize.ShloMosaic.Lib.ValueLayout

noncomputable section

namespace Cert.KernelIdeal.Pay

open Cert.KernelIdeal Cert.KernelIdeal.Gen Cert.Film
open Idealize.ShloMosaic Idealize.ShloMosaic.ValueIdx

/-! ## Layouts read at an element, for any sizes -/

section Layout
variable {α : Type} {A B C N : ℕ}

/-- An `[N, C]` array recast to `[A, B, C]` reads, at `(a, b, c)`, row `p = a · B + b` at column `c`. -/
theorem cast_nc_abc_apply (x : (⟨2, ![N, C]⟩ : Shape).Idx → α) (h : (⟨2, ![N, C]⟩ : Shape).ShapeCasts ⟨3, ![A, B, C]⟩)
    (a : Fin A) (b : Fin B) (c : Fin C) (p : Fin N) (hp : p.val = a.val * B + b.val) :
    shapeCast ⟨3, ![A, B, C]⟩ x h (ix3 a b c) = x (ix2 p c) :=
  shapeCast_apply x h _ _ (by
    rw [Shape.rowMajor_val_two, Shape.rowMajor_val_three]
    show p.val * C + c.val = (a.val * B + b.val) * C + c.val
    rw [hp])

/-- An `[A, B, C]` array recast to `[N, C]` reads, at row `p = a · B + b` and column `c`, the element `(a, b, c)`. -/
theorem cast_abc_nc_apply (x : (⟨3, ![A, B, C]⟩ : Shape).Idx → α) (h : (⟨3, ![A, B, C]⟩ : Shape).ShapeCasts ⟨2, ![N, C]⟩)
    (a : Fin A) (b : Fin B) (c : Fin C) (p : Fin N) (hp : p.val = a.val * B + b.val) :
    shapeCast ⟨2, ![N, C]⟩ x h (ix2 p c) = x (ix3 a b c) :=
  shapeCast_apply x h _ _ (by
    rw [Shape.rowMajor_val_two, Shape.rowMajor_val_three]
    show (a.val * B + b.val) * C + c.val = p.val * C + c.val
    rw [hp])

/-- An `[A, C]` table recast to `[A, 1, C]` reads, at `(a, u, c)`, the table at `(a, c)`. -/
theorem cast_ac_a1c_apply (x : (⟨2, ![A, C]⟩ : Shape).Idx → α) (h : (⟨2, ![A, C]⟩ : Shape).ShapeCasts ⟨3, ![A, 1, C]⟩)
    (a : Fin A) (u : Fin 1) (c : Fin C) : shapeCast ⟨3, ![A, 1, C]⟩ x h (ix3 a u c) = x (ix2 a c) :=
  shapeCast_apply x h _ _ (by
    have hu : u.val = 0 := by omega
    rw [Shape.rowMajor_val_two, Shape.rowMajor_val_three]
    show a.val * C + c.val = (a.val * 1 + u.val) * C + c.val
    rw [hu, Nat.mul_one, Nat.add_zero])

/-- An `[A, 1, C]` array broadcast to `[A, B, C]` reads, at `(a, b, c)`, the operand at `(a, 0, c)`. -/
theorem bcast_a1c_abc_apply (v : (⟨3, ![A, 1, C]⟩ : Shape).Idx → α) (h : (⟨3, ![A, 1, C]⟩ : Shape).Broadcasts ⟨3, ![A, B, C]⟩)
    (a : Fin A) (b : Fin B) (c : Fin C) : broadcastTo ⟨3, ![A, B, C]⟩ v h (ix3 a b c) = v (ix3 a (0 : Fin 1) c) := by
  refine broadcastTo_apply v h (ix3 a b c) (ix3 a (0 : Fin 1) c) fun ax => ?_
  match ax with
  | ⟨0, _⟩ =>
    show a.val = if A = 1 then 0 else a.val
    split
    · have := a.isLt; omega
    · rfl
  | ⟨1, _⟩ => rfl
  | ⟨2, _⟩ =>
    show c.val = if C = 1 then 0 else c.val
    split
    · have := c.isLt; omega
    · rfl

/-- A `[1, B, C]` array broadcast to `[A, B, C]` reads, at `(a, b, c)`, the operand at `(0, b, c)`. -/
theorem bcast_1bc_abc_apply (v : (⟨3, ![1, B, C]⟩ : Shape).Idx → α) (h : (⟨3, ![1, B, C]⟩ : Shape).Broadcasts ⟨3, ![A, B, C]⟩)
    (a : Fin A) (b : Fin B) (c : Fin C) : broadcastTo ⟨3, ![A, B, C]⟩ v h (ix3 a b c) = v (ix3 (0 : Fin 1) b c) := by
  refine broadcastTo_apply v h (ix3 a b c) (ix3 (0 : Fin 1) b c) fun ax => ?_
  match ax with
  | ⟨0, _⟩ => rfl
  | ⟨1, _⟩ =>
    show b.val = if B = 1 then 0 else b.val
    split
    · have := b.isLt; omega
    · rfl
  | ⟨2, _⟩ =>
    show c.val = if C = 1 then 0 else c.val
    split
    · have := c.isLt; omega
    · rfl

end Layout

/-! ## The two building blocks of a layer -/

section Blocks

/-- A linear layer read at `(p, q)`: the activations `[M, K]` against the transpose of the weights `[N, K]` into the
    zero word, plus the bias row broadcast over the rows, is `lin` of row `p` of the activations, row `q` of the
    weights and entry `q` of the bias. -/
theorem dense_apply {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (a : FVec Ideal ⟨2, ![M, K]⟩ φ₁) (w : FVec Ideal ⟨2, ![N, K]⟩ φ₂)
    (ht : (⟨2, ![N, K]⟩ : Shape).Transposes [1, 0] ⟨2, ![K, N]⟩) (bias : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (matmul D none a (transpose ⟨2, ![K, N]⟩ [1, 0] w ht) (constant ⟨2, ![M, N]⟩ .f32 0x00000000#32))
        (broadcastTo ⟨2, ![M, N]⟩ (shapeCast ⟨2, ![1, N]⟩ bias hc) hb) (ix2 p q)
      = lin (fun k => a (ix2 p k)) (fun k => w (ix2 q k)) (bias (ix1 q)) := by
  obtain rfl := Cert.Lib.Rowwise.eq_plain D h1 h2 h3 h4 h5 h6
  show FloatOps.matmul (DotDims.plain M K N) none a _ (constant ⟨2, ![M, N]⟩ .f32 0x00000000#32) (ix2 p q)
      + broadcastTo ⟨2, ![M, N]⟩ (shapeCast ⟨2, ![1, N]⟩ bias hc) hb (ix2 p q) = _
  rw [Cert.Lib.Rowwise.plain_matmul_zero_apply, broadcastTo_1b_ab_apply, shapeCast_a_1a_apply]
  unfold lin
  refine congrArg (· + bias (ix1 q)) (Finset.sum_congr rfl fun k _ => ?_)
  rw [transpose_ix2_apply]

/-- A scale by one plus a per-batch table and a shift by another, read at `(a, b, c)`: the tables `[A, C]` are
    recast to `[A, 1, C]` and broadcast along the middle axis. -/
theorem film_apply {A B C : ℕ} (v : FVec Ideal ⟨3, ![A, B, C]⟩ .f32) (s t : FVec Ideal ⟨2, ![A, C]⟩ .f32)
    (hc : (⟨2, ![A, C]⟩ : Shape).ShapeCasts ⟨3, ![A, 1, C]⟩) (hb : (⟨3, ![A, 1, C]⟩ : Shape).Broadcasts ⟨3, ![A, B, C]⟩)
    (a : Fin A) (b : Fin B) (c : Fin C) :
    addf (mulf v (broadcastTo ⟨3, ![A, B, C]⟩
          (addf (broadcast ⟨3, ![A, 1, C]⟩ (Scalar.ofBits (F := Ideal) .f32 0x3F800000#32)) (shapeCast ⟨3, ![A, 1, C]⟩ s hc)) hb))
        (broadcastTo ⟨3, ![A, B, C]⟩ (shapeCast ⟨3, ![A, 1, C]⟩ t hc) hb) (ix3 a b c)
      = film (v (ix3 a b c)) (s (ix2 a c)) (t (ix2 a c)) := by
  show v (ix3 a b c) * broadcastTo ⟨3, ![A, B, C]⟩ _ hb (ix3 a b c) + broadcastTo ⟨3, ![A, B, C]⟩ _ hb (ix3 a b c) = _
  rw [bcast_a1c_abc_apply, bcast_a1c_abc_apply]
  show v (ix3 a b c) * (one + shapeCast ⟨3, ![A, 1, C]⟩ s hc (ix3 a (0 : Fin 1) c)) + shapeCast ⟨3, ![A, 1, C]⟩ t hc (ix3 a (0 : Fin 1) c) = _
  rw [cast_ac_a1c_apply, cast_ac_a1c_apply]
  rfl

end Blocks

/-! ## The body -/

/-- The first two layers up to the second bias, read at `(b, r, o)`: the second hidden layer's unit `o` before its
    scale, shift and clamp, for batch row `b` at the block's point `r`. -/
theorem pay2_apply (x0 : Vec Ideal S512x3 .f32) (x1 x2 : Vec Ideal S8x128 .f32) (x7 : Vec Ideal S128x3 .f32)
    (x8 : Vec Ideal S128 .f32) (x9 : Vec Ideal S128x128 .f32) (x10 : Vec Ideal S128 .f32)
    (b : Fin 8) (r : Fin 512) (o : Fin 128) :
    k0_pay2 (F := Ideal) x0 x7 x8 x1 x2 x9 x10 (ix3 b r o)
      = lin (hid0 (fun d => x0 (ix2 r d)) x1 x2 x7 x8 b) (fun k => x9 (ix2 o k)) (x10 (ix1 o)) := by
  -- row `p = b · 512 + r` of the `[4096, ·]` layout
  obtain ⟨p, hp⟩ : ∃ p : Fin 4096, p.val = b.val * 512 + r.val := ⟨⟨b.val * 512 + r.val, by omega⟩, rfl⟩
  unfold k0_pay2
  refine (cast_nc_abc_apply _ _ b r o p hp).trans ?_
  -- the second linear layer
  refine (dense_apply _ rfl rfl rfl rfl rfl rfl _ _ _ _ _ _ _ _).trans ?_
  unfold lin
  refine congrArg (· + x10 (ix1 o)) (Finset.sum_congr rfl fun k _ => congrArg (· * x9 (ix2 o k)) ?_)
  -- its activation `k`: the first hidden layer's unit `k`
  beta_reduce
  refine (truncf_apply (φ := .f32) (ψ := .bf16) _ _ (ix2 p k)).trans ?_
  refine (cast_abc_nc_apply _ _ b r k p hp).trans ?_
  refine (maximumf_apply _ _ _).trans ?_
  unfold hid0 relu
  refine congrArg (max · zero) ?_
  refine (film_apply _ _ _ _ _ b r k).trans ?_
  simp only [shapeCast_self]
  refine congrArg (film · (x1 (ix2 b k)) (x2 (ix2 b k))) ?_
  -- the first linear layer, the same for every batch row
  refine (bcast_1bc_abc_apply _ _ b r k).trans ?_
  refine (shapeCast_ab_1ab_apply _ _ 0 r k).trans ?_
  exact dense_apply _ rfl rfl rfl rfl rfl rfl _ _ _ _ _ _ _ _

/-- Element `(b, r, f)` of the block region 0's body stores. -/
theorem pay0_apply (x0 : Vec Ideal S512x3 .f32) (x1 x2 x3 x4 : Vec Ideal S8x128 .f32) (x5 x6 : Vec Ideal S8x4 .f32) (x7 : Vec Ideal S128x3 .f32)
    (x8 : Vec Ideal S128 .f32) (x9 : Vec Ideal S128x128 .f32) (x10 : Vec Ideal S128 .f32) (x11 : Vec Ideal S4x128 .f32) (x12 : Vec Ideal S4 .f32)
    (b : Fin 8) (r : Fin 512) (f : Fin 4) :
    k0_pay1 (F := Ideal) (k0_pay2 x0 x7 x8 x1 x2 x9 x10) (k0_pay3 x3) x4 x11 x12 x5 x6 (ix3 b r f)
      = outAt (fun d => x0 (ix2 r d)) x1 x2 x3 x4 x5 x6 x7 x8 x9 x10 x11 x12 b f := by
  -- row `p = b · 512 + r` of the `[4096, ·]` layout
  obtain ⟨p, hp⟩ : ∃ p : Fin 4096, p.val = b.val * 512 + r.val := ⟨⟨b.val * 512 + r.val, by omega⟩, rfl⟩
  unfold k0_pay1
  -- the output's scale and shift
  refine (film_apply _ _ _ _ _ b r f).trans ?_
  simp only [shapeCast_self]
  unfold outAt
  refine congrArg (film · (x5 (ix2 b f)) (x6 (ix2 b f))) ?_
  -- the third linear layer
  refine (cast_nc_abc_apply _ _ b r f p hp).trans ?_
  refine (dense_apply _ rfl rfl rfl rfl rfl rfl _ _ _ _ _ _ _ _).trans ?_
  unfold lin
  refine congrArg (· + x12 (ix1 f)) (Finset.sum_congr rfl fun k _ => congrArg (· * x11 (ix2 f k)) ?_)
  -- its activation `k`: the second hidden layer's unit `k`
  beta_reduce
  refine (truncf_apply (φ := .f32) (ψ := .bf16) _ _ (ix2 p k)).trans ?_
  refine (cast_abc_nc_apply _ _ b r k p hp).trans ?_
  refine (maximumf_apply _ _ _).trans ?_
  unfold hid1 relu
  refine congrArg (max · zero) ?_
  refine (film_apply _ _ _ _ _ b r k).trans ?_
  unfold k0_pay3
  simp only [shapeCast_self]
  exact congrArg (film · (x3 (ix2 b k)) (x4 (ix2 b k))) (pay2_apply x0 x1 x2 x7 x8 x9 x10 b r k)

/-- Element `(b, r, f)` of the block region 1's body stores: the same body. -/
theorem pay1_apply (x0 : Vec Ideal S512x3 .f32) (x1 x2 x3 x4 : Vec Ideal S8x128 .f32) (x5 x6 : Vec Ideal S8x4 .f32) (x7 : Vec Ideal S128x3 .f32)
    (x8 : Vec Ideal S128 .f32) (x9 : Vec Ideal S128x128 .f32) (x10 : Vec Ideal S128 .f32) (x11 : Vec Ideal S4x128 .f32) (x12 : Vec Ideal S4 .f32)
    (b : Fin 8) (r : Fin 512) (f : Fin 4) :
    k1_pay1 (F := Ideal) (k1_pay2 x0 x7 x8 x1 x2 x9 x10) (k1_pay3 x3) x4 x11 x12 x5 x6 (ix3 b r f)
      = outAt (fun d => x0 (ix2 r d)) x1 x2 x3 x4 x5 x6 x7 x8 x9 x10 x11 x12 b f :=
  pay0_apply x0 x1 x2 x3 x4 x5 x6 x7 x8 x9 x10 x11 x12 b r f

end Cert.KernelIdeal.Pay

end
-- ==== Proof.KBlocks0.lean ====
/-
  Region 0's output array after the run, read at an element.

  The region walks 64 blocks of 512 points. Block `t` of the output holds, for every batch row, the
  perceptron's outputs at points `512 · t … 512 · t + 511` of the region's point array; the tables and the
  weights are the same whole arrays at every block. The blocks tile the output, so element `(b, p, f)` of the
  array is output `f` at point `p` for batch row `b`.

  In steps. (1) Every access of the body is a whole staging buffer, so the block the body leaves is its payload of
  the input blocks; element `(b, r, f)` of it is the perceptron at row `r` of the point block (`out_apply`).
  (2) The index maps, decided once over the grid: the tables and the weights sit at block index zero, the point
  window at block `(t, 0)`, the output window at block `(0, t, 0)` (`idx_whole`, `idx_moving`). An element of a
  block sits in its array at block index × block size + its own coordinate, so the table and weight blocks are the
  whole arrays (`blk_whole`), row `r` of the point block is point `512 · t + r` (`blk0_apply`), and element
  `(b, r, f)` of the output block is element `(b, 512 · t + r, f)` of the output array (`emb_out`). (3) Hence what
  grid point `t` writes back is block `t` of ONE function of the whole output index, `wholeOut` (`flushed_eq`).
  (4) Point `p` lies in the block of grid point `p / 512`, and every grid point writes back (`cover`); so the array
  ends holding `wholeOut` (`final`), which at `(b, p, f)` is the statement (`arr_apply`).
-/
import proofs.«177964_j13537736917463_1_alg».proof.Proof.Gen.KernelIdeal.Frame
import proofs.«177964_j13537736917463_1_alg».proof.Proof.KPay
import Idealize.ShloMosaic.Lib.Pipeline.Value

set_option maxRecDepth 16384

noncomputable section

namespace Cert.KernelIdeal.Blocks0

open Cert.KernelIdeal Cert.KernelIdeal.Gen Cert.Film
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! The region's arrays as it finds them, each at its literal type. -/
abbrev xs (c : Dev nD) : Vec Ideal S32768x3 .f32 := V c main_v21
abbrev s0 (c : Dev nD) : Vec Ideal S8x128 .f32 := V c main_v5
abbrev t0 (c : Dev nD) : Vec Ideal S8x128 .f32 := V c main_v6
abbrev s1 (c : Dev nD) : Vec Ideal S8x128 .f32 := V c main_v12
abbrev t1 (c : Dev nD) : Vec Ideal S8x128 .f32 := V c main_v13
abbrev s2 (c : Dev nD) : Vec Ideal S8x4 .f32 := V c main_v19
abbrev t2 (c : Dev nD) : Vec Ideal S8x4 .f32 := V c main_v20
abbrev w0 (c : Dev nD) : Vec Ideal S128x3 .f32 := V c main_arg3
abbrev c0 (c : Dev nD) : Vec Ideal S128 .f32 := V c main_arg4
abbrev w1 (c : Dev nD) : Vec Ideal S128x128 .f32 := V c main_arg7
abbrev c1 (c : Dev nD) : Vec Ideal S128 .f32 := V c main_arg8
abbrev w2 (c : Dev nD) : Vec Ideal S4x128 .f32 := V c main_arg11
abbrev c2 (c : Dev nD) : Vec Ideal S4 .f32 := V c main_arg12

/-! ## The block the body leaves, at an element -/

/-! Zero offsets on every axis, spelt as the body's accesses spell them. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Element `(b, r, f)` of the block the body leaves, from the input blocks: every load reads a whole staging
    buffer and the one store writes the whole output buffer, so the block is the body's payload of the input
    blocks, and that is the perceptron at row `r` of the point block. -/
theorem out_apply (x0 : Vec Ideal S512x3 .f32) (x1 x2 x3 x4 : Vec Ideal S8x128 .f32) (x5 x6 : Vec Ideal S8x4 .f32) (x7 : Vec Ideal S128x3 .f32)
    (x8 : Vec Ideal S128 .f32) (x9 : Vec Ideal S128x128 .f32) (x10 : Vec Ideal S128 .f32) (x11 : Vec Ideal S4x128 .f32) (x12 : Vec Ideal S4 .f32)
    (b : Fin 8) (r : Fin 512) (f : Fin 4) :
    out0_13 (F := Ideal) x0 x1 x2 x3 x4 x5 x6 x7 x8 x9 x10 x11 x12 (ix3 b r f)
      = outAt (fun d => x0 (ix2 r d)) x1 x2 x3 x4 x5 x6 x7 x8 x9 x10 x11 x12 b f := by
  unfold out0_13
  rw [View.canon_unit_zero hz3]
  simp only [View.ld_unit_zero (S := S512x3) hz2, View.ld_unit_zero (S := S128x3) hz2, View.ld_unit_zero (S := S128) hz1,
    View.ld_unit_zero (S := S8x128) hz2, View.ld_unit_zero (S := S128x128) hz2, View.ld_unit_zero (S := S4x128) hz2,
    View.ld_unit_zero (S := S4) hz1, View.ld_unit_zero (S := S8x4) hz2]
  exact Pay.pay0_apply x0 x1 x2 x3 x4 x5 x6 x7 x8 x9 x10 x11 x12 b r f

/-! ## Where each window's block sits in its array -/

/-- The index maps of the tables and of the weights, decided over the grid: block index zero on every axis at
    every grid point. -/
theorem idx_whole : ∀ t : Fin cfg0.N,
    win0_1.index t = (fun _ => 0) ∧ win0_2.index t = (fun _ => 0) ∧ win0_3.index t = (fun _ => 0)
    ∧ win0_4.index t = (fun _ => 0) ∧ win0_5.index t = (fun _ => 0) ∧ win0_6.index t = (fun _ => 0)
    ∧ win0_7.index t = (fun _ => 0) ∧ win0_8.index t = (fun _ => 0) ∧ win0_9.index t = (fun _ => 0)
    ∧ win0_10.index t = (fun _ => 0) ∧ win0_11.index t = (fun _ => 0) ∧ win0_12.index t = (fun _ => 0) :=
  (by decide +kernel : ∀ t : Fin grid0.N, _)

/-- The index maps of the points and of the output, decided over the grid: at grid point `t` the point window is
    at block `(t, 0)` and the output window at block `(0, t, 0)`. -/
theorem idx_moving : ∀ t : Fin cfg0.N,
    win0_0.index t = ![t.val, 0] ∧ win0_13.index t = ![0, t.val, 0] :=
  (by decide +kernel : ∀ t : Fin grid0.N, _)

/-- The grid has 64 points. -/
theorem t_lt (t : Fin cfg0.N) : t.val < 64 := lt_of_lt_of_eq t.isLt N_0

/-- Row `r` of the point block at grid point `t` is point `512 · t + r` of the point array. -/
theorem blk0_apply (c : Dev nD) (t : Fin cfg0.N) (r : Fin 512) (d : Fin 3) (p : Fin 32768) (hp : p.val = 512 * t.val + r.val) :
    (iblk0 (F := Ideal) V c 0 t : Vec Ideal S512x3 .f32) (ix2 r d) = xs V c (ix2 p d) := by
  have e := (idx_moving t).1
  have e0 : win0_0.index t (0 : Fin 2) = t.val := congrFun e 0
  have e1 : win0_0.index t (1 : Fin 2) = 0 := congrFun e 1
  show V c main_v21 (((cfg0.win 0).blk t).view.emb (ix2 r d)) = V c main_v21 (ix2 p d)
  refine congrArg _ (funext fun a => Fin.ext ?_)
  match a with
  | ⟨0, _⟩ => show win0_0.index t (0 : Fin 2) * 512 + 1 * r.val = p.val; omega
  | ⟨1, _⟩ => show win0_0.index t (1 : Fin 2) * 3 + 1 * d.val = d.val; omega

/-- The block of each table and of each weight array, at every grid point, is the whole array: its block index is
    zero on every axis, so an element of the block sits at its own coordinates. -/
theorem blk_whole (c : Dev nD) (t : Fin cfg0.N) :
    (iblk0 (F := Ideal) V c 1 t : Vec Ideal S8x128 .f32) = s0 V c
    ∧ (iblk0 (F := Ideal) V c 2 t : Vec Ideal S8x128 .f32) = t0 V c
    ∧ (iblk0 (F := Ideal) V c 3 t : Vec Ideal S8x128 .f32) = s1 V c
    ∧ (iblk0 (F := Ideal) V c 4 t : Vec Ideal S8x128 .f32) = t1 V c
    ∧ (iblk0 (F := Ideal) V c 5 t : Vec Ideal S8x4 .f32) = s2 V c
    ∧ (iblk0 (F := Ideal) V c 6 t : Vec Ideal S8x4 .f32) = t2 V c
    ∧ (iblk0 (F := Ideal) V c 7 t : Vec Ideal S128x3 .f32) = w0 V c
    ∧ (iblk0 (F := Ideal) V c 8 t : Vec Ideal S128 .f32) = c0 V c
    ∧ (iblk0 (F := Ideal) V c 9 t : Vec Ideal S128x128 .f32) = w1 V c
    ∧ (iblk0 (F := Ideal) V c 10 t : Vec Ideal S128 .f32) = c1 V c
    ∧ (iblk0 (F := Ideal) V c 11 t : Vec Ideal S4x128 .f32) = w2 V c
    ∧ (iblk0 (F := Ideal) V c 12 t : Vec Ideal S4 .f32) = c2 V c := by
  obtain ⟨e1, e2, e3, e4, e5, e6, e7, e8, e9, e10, e11, e12⟩ := idx_whole t
  refine ⟨funext fun y => ?_, funext fun y => ?_, funext fun y => ?_, funext fun y => ?_, funext fun y => ?_, funext fun y => ?_,
    funext fun y => ?_, funext fun y => ?_, funext fun y => ?_, funext fun y => ?_, funext fun y => ?_, funext fun y => ?_⟩
  · show V c main_v5 (((cfg0.win 1).blk t).view.emb y) = V c main_v5 y
    exact congrArg _ (funext fun a => Fin.ext (win0_1.rect_emb_val_of_index_zero t a (congrFun e1 a) y))
  · show V c main_v6 (((cfg0.win 2).blk t).view.emb y) = V c main_v6 y
    exact congrArg _ (funext fun a => Fin.ext (win0_2.rect_emb_val_of_index_zero t a (congrFun e2 a) y))
  · show V c main_v12 (((cfg0.win 3).blk t).view.emb y) = V c main_v12 y
    exact congrArg _ (funext fun a => Fin.ext (win0_3.rect_emb_val_of_index_zero t a (congrFun e3 a) y))
  · show V c main_v13 (((cfg0.win 4).blk t).view.emb y) = V c main_v13 y
    exact congrArg _ (funext fun a => Fin.ext (win0_4.rect_emb_val_of_index_zero t a (congrFun e4 a) y))
  · show V c main_v19 (((cfg0.win 5).blk t).view.emb y) = V c main_v19 y
    exact congrArg _ (funext fun a => Fin.ext (win0_5.rect_emb_val_of_index_zero t a (congrFun e5 a) y))
  · show V c main_v20 (((cfg0.win 6).blk t).view.emb y) = V c main_v20 y
    exact congrArg _ (funext fun a => Fin.ext (win0_6.rect_emb_val_of_index_zero t a (congrFun e6 a) y))
  · show V c main_arg3 (((cfg0.win 7).blk t).view.emb y) = V c main_arg3 y
    exact congrArg _ (funext fun a => Fin.ext (win0_7.rect_emb_val_of_index_zero t a (congrFun e7 a) y))
  · show V c main_arg4 (((cfg0.win 8).blk t).view.emb y) = V c main_arg4 y
    exact congrArg _ (funext fun a => Fin.ext (win0_8.rect_emb_val_of_index_zero t a (congrFun e8 a) y))
  · show V c main_arg7 (((cfg0.win 9).blk t).view.emb y) = V c main_arg7 y
    exact congrArg _ (funext fun a => Fin.ext (win0_9.rect_emb_val_of_index_zero t a (congrFun e9 a) y))
  · show V c main_arg8 (((cfg0.win 10).blk t).view.emb y) = V c main_arg8 y
    exact congrArg _ (funext fun a => Fin.ext (win0_10.rect_emb_val_of_index_zero t a (congrFun e10 a) y))
  · show V c main_arg11 (((cfg0.win 11).blk t).view.emb y) = V c main_arg11 y
    exact congrArg _ (funext fun a => Fin.ext (win0_11.rect_emb_val_of_index_zero t a (congrFun e11 a) y))
  · show V c main_arg12 (((cfg0.win 12).blk t).view.emb y) = V c main_arg12 y
    exact congrArg _ (funext fun a => Fin.ext (win0_12.rect_emb_val_of_index_zero t a (congrFun e12 a) y))

/-- Element `(b, r, f)` of the output block at grid point `t` sits in the output array at `(b, 512 · t + r, f)`. -/
theorem emb_out (t : Fin cfg0.N) (b : Fin 8) (r : Fin 512) (f : Fin 4) (p : Fin 32768) (hp : p.val = 512 * t.val + r.val) :
    ((cfg0.win 13).blk t).view.emb (ix3 b r f) = (ix3 b p f : S8x32768x4.Idx) := by
  have e := (idx_moving t).2
  have e0 : win0_13.index t (0 : Fin 3) = 0 := congrFun e 0
  have e1 : win0_13.index t (1 : Fin 3) = t.val := congrFun e 1
  have e2 : win0_13.index t (2 : Fin 3) = 0 := congrFun e 2
  funext a; apply Fin.ext
  match a with
  | ⟨0, _⟩ => show win0_13.index t (0 : Fin 3) * 8 + 1 * b.val = b.val; omega
  | ⟨1, _⟩ => show win0_13.index t (1 : Fin 3) * 512 + 1 * r.val = p.val; omega
  | ⟨2, _⟩ => show win0_13.index t (2 : Fin 3) * 4 + 1 * f.val = f.val; omega

/-! ## The output array as one function, and the blocks as its restrictions -/

/-- Output `f` of the perceptron at point `p` of the region's point array, for batch row `b`. -/
abbrev pointOut (c : Dev nD) (b : Fin 8) (p : Fin 32768) (f : Fin 4) : EReal :=
  outAt (fun d => xs V c (ix2 p d)) (s0 V c) (t0 V c) (s1 V c) (t1 V c) (s2 V c) (t2 V c)
    (w0 V c) (c0 V c) (w1 V c) (c1 V c) (w2 V c) (c2 V c) b f

/-- The whole output array as ONE function of the region's arrays: element `(b, p, f)` is `pointOut b p f`. -/
abbrev wholeOut (c : Dev nD) : Vec Ideal S8x32768x4 .f32 := fun j => pointOut V c (j 0) (j 1) (j 2)

/-- WHAT GRID POINT `t` WRITES BACK is block `t` of `wholeOut`: element `(b, r, f)` of the block the body leaves is
    the perceptron at row `r` of the point block, which is point `512 · t + r`, with the whole tables and weights;
    and that element lands at `(b, 512 · t + r, f)`. -/
theorem flushed_eq (c : Dev nD) (t : Fin cfg0.N) :
    (dat0 (F := Ideal) V c).flushed 13 t = ((cfg0.win 13).blk t).view.read (Elt Ideal) (wholeOut V c) := by
  show (cfg0.win 13).cut (grid0.coords t) ((dat0 (F := Ideal) V c).after 13 t) = _
  rw [after0_13]
  funext j
  obtain ⟨b, r, f, rfl⟩ : ∃ (b : Fin 8) (r : Fin 512) (f : Fin 4), j = ix3 b r f := ⟨j 0, j 1, j 2, eq_ix3 j⟩
  have ht := t_lt t
  obtain ⟨p, hp⟩ : ∃ p : Fin 32768, p.val = 512 * t.val + r.val := ⟨⟨512 * t.val + r.val, by omega⟩, rfl⟩
  show out0_13 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) (iblk0 V c 11 t) (iblk0 V c 12 t) (ix3 b r f)
    = wholeOut V c (((cfg0.win 13).blk t).view.emb (ix3 b r f))
  rw [emb_out t b r f p hp]
  refine (out_apply (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) (iblk0 V c 11 t) (iblk0 V c 12 t) b r f).trans ?_
  obtain ⟨h1, h2, h3, h4, h5, h6, h7, h8, h9, h10, h11, h12⟩ := blk_whole V c t
  rw [h1, h2, h3, h4, h5, h6, h7, h8, h9, h10, h11, h12]
  show outAt (fun d => (iblk0 (F := Ideal) V c 0 t : Vec Ideal S512x3 .f32) (ix2 r d)) _ _ _ _ _ _ _ _ _ _ _ _ b f
    = outAt (fun d => xs V c (ix2 p d)) _ _ _ _ _ _ _ _ _ _ _ _ b f
  rw [show (fun d => (iblk0 (F := Ideal) V c 0 t : Vec Ideal S512x3 .f32) (ix2 r d)) = fun d => xs V c (ix2 p d) from
    funext fun d => blk0_apply V c t r d p hp]

/-- Every element of the output array is in the block of the grid point `p / 512`, and that point writes back. -/
theorem cover (i : S8x32768x4.Idx) :
    ∃ t : Fin cfg0.N, (cfg0.win 13).flush t = true ∧ i ∈ ((cfg0.win 13).blk t).view.set := by
  have h0 : (i 0).val < 8 := (i 0).isLt
  have h1 : (i 1).val < 32768 := (i 1).isLt
  have h2 : (i 2).val < 4 := (i 2).isLt
  obtain ⟨t, ht⟩ : ∃ t : Fin cfg0.N, t.val = (i 1).val / 512 :=
    ⟨⟨(i 1).val / 512, lt_of_lt_of_eq (by omega : (i 1).val / 512 < 64) N_0.symm⟩, rfl⟩
  have e := (idx_moving t).2
  have e0 : win0_13.index t (0 : Fin 3) = 0 := congrFun e 0
  have e1 : win0_13.index t (1 : Fin 3) = t.val := congrFun e 1
  have e2 : win0_13.index t (2 : Fin 3) = 0 := congrFun e 2
  refine ⟨t, flush0_13 t, ?_⟩
  show i ∈ ((View.whole main_v22).slice (win0_13.rect t)).set
  rw [View.set_slice_whole, Rect.mem_set_unit]
  intro a
  match a with
  | ⟨0, _⟩ => show win0_13.index t (0 : Fin 3) * 8 ≤ (i 0).val ∧ (i 0).val < win0_13.index t (0 : Fin 3) * 8 + 8; omega
  | ⟨1, _⟩ => show win0_13.index t (1 : Fin 3) * 512 ≤ (i 1).val ∧ (i 1).val < win0_13.index t (1 : Fin 3) * 512 + 512; omega
  | ⟨2, _⟩ => show win0_13.index t (2 : Fin 3) * 4 ≤ (i 2).val ∧ (i 2).val < win0_13.index t (2 : Fin 3) * 4 + 4; omega

/-- THE ARRAY after the run: every block written back is a block of `wholeOut` and the blocks cover the array, so it
    ends holding `wholeOut`. -/
theorem final (c : Dev nD) : (dat0 (F := Ideal) V c).arrAt 13 cfg0.N = wholeOut V c :=
  (dat0 (F := Ideal) V c).arrAt_eq_of_cover 13 (wholeOut V c) (fun t _ => flushed_eq V c t) cover

/-- Element `(b, p, f)` of the region's output array after its last block is written back. -/
theorem arr_apply (c : Dev nD) (b : Fin 8) (p : Fin 32768) (f : Fin 4) :
    ((dat0 (F := Ideal) V c).arrAt 13 cfg0.N : Vec Ideal S8x32768x4 .f32) (ix3 b p f)
      = outAt (fun d => xs V c (ix2 p d)) (s0 V c) (t0 V c) (s1 V c) (t1 V c) (s2 V c) (t2 V c)
          (w0 V c) (c0 V c) (w1 V c) (c1 V c) (w2 V c) (c2 V c) b f :=
  congrFun (final V c) (ix3 b p f)

end Cert.KernelIdeal.Blocks0

end
-- ==== Proof.KBlocks1.lean ====
/-
  Region 1's output array after the run, read at an element.

  The region walks 216 blocks of 512 points. Block `t` of the output holds, for every batch row, the
  perceptron's outputs at points `512 · t … 512 · t + 511` of the region's point array; the tables and the
  weights are the same whole arrays at every block. The blocks tile the output, so element `(b, p, f)` of the
  array is output `f` at point `p` for batch row `b`.

  In steps. (1) Every access of the body is a whole staging buffer, so the block the body leaves is its payload of
  the input blocks; element `(b, r, f)` of it is the perceptron at row `r` of the point block (`out_apply`).
  (2) The index maps, decided once over the grid: the tables and the weights sit at block index zero, the point
  window at block `(t, 0)`, the output window at block `(0, t, 0)` (`idx_whole`, `idx_moving`). An element of a
  block sits in its array at block index × block size + its own coordinate, so the table and weight blocks are the
  whole arrays (`blk_whole`), row `r` of the point block is point `512 · t + r` (`blk0_apply`), and element
  `(b, r, f)` of the output block is element `(b, 512 · t + r, f)` of the output array (`emb_out`). (3) Hence what
  grid point `t` writes back is block `t` of ONE function of the whole output index, `wholeOut` (`flushed_eq`).
  (4) Point `p` lies in the block of grid point `p / 512`, and every grid point writes back (`cover`); so the array
  ends holding `wholeOut` (`final`), which at `(b, p, f)` is the statement (`arr_apply`).
-/
import proofs.«177964_j13537736917463_1_alg».proof.Proof.Gen.KernelIdeal.Frame
import proofs.«177964_j13537736917463_1_alg».proof.Proof.KPay
import Idealize.ShloMosaic.Lib.Pipeline.Value

set_option maxRecDepth 16384

noncomputable section

namespace Cert.KernelIdeal.Blocks1

open Cert.KernelIdeal Cert.KernelIdeal.Gen Cert.Film
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! The region's arrays as it finds them, each at its literal type. -/
abbrev xs (c : Dev nD) : Vec Ideal S110592x3 .f32 := V c main_v24
abbrev s0 (c : Dev nD) : Vec Ideal S8x128 .f32 := V c main_v5
abbrev t0 (c : Dev nD) : Vec Ideal S8x128 .f32 := V c main_v6
abbrev s1 (c : Dev nD) : Vec Ideal S8x128 .f32 := V c main_v12
abbrev t1 (c : Dev nD) : Vec Ideal S8x128 .f32 := V c main_v13
abbrev s2 (c : Dev nD) : Vec Ideal S8x4 .f32 := V c main_v19
abbrev t2 (c : Dev nD) : Vec Ideal S8x4 .f32 := V c main_v20
abbrev w0 (c : Dev nD) : Vec Ideal S128x3 .f32 := V c main_arg3
abbrev c0 (c : Dev nD) : Vec Ideal S128 .f32 := V c main_arg4
abbrev w1 (c : Dev nD) : Vec Ideal S128x128 .f32 := V c main_arg7
abbrev c1 (c : Dev nD) : Vec Ideal S128 .f32 := V c main_arg8
abbrev w2 (c : Dev nD) : Vec Ideal S4x128 .f32 := V c main_arg11
abbrev c2 (c : Dev nD) : Vec Ideal S4 .f32 := V c main_arg12

/-! ## The block the body leaves, at an element -/

/-! Zero offsets on every axis, spelt as the body's accesses spell them. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Element `(b, r, f)` of the block the body leaves, from the input blocks: every load reads a whole staging
    buffer and the one store writes the whole output buffer, so the block is the body's payload of the input
    blocks, and that is the perceptron at row `r` of the point block. -/
theorem out_apply (x0 : Vec Ideal S512x3 .f32) (x1 x2 x3 x4 : Vec Ideal S8x128 .f32) (x5 x6 : Vec Ideal S8x4 .f32) (x7 : Vec Ideal S128x3 .f32)
    (x8 : Vec Ideal S128 .f32) (x9 : Vec Ideal S128x128 .f32) (x10 : Vec Ideal S128 .f32) (x11 : Vec Ideal S4x128 .f32) (x12 : Vec Ideal S4 .f32)
    (b : Fin 8) (r : Fin 512) (f : Fin 4) :
    out1_13 (F := Ideal) x0 x1 x2 x3 x4 x5 x6 x7 x8 x9 x10 x11 x12 (ix3 b r f)
      = outAt (fun d => x0 (ix2 r d)) x1 x2 x3 x4 x5 x6 x7 x8 x9 x10 x11 x12 b f := by
  unfold out1_13
  rw [View.canon_unit_zero hz3]
  simp only [View.ld_unit_zero (S := S512x3) hz2, View.ld_unit_zero (S := S128x3) hz2, View.ld_unit_zero (S := S128) hz1,
    View.ld_unit_zero (S := S8x128) hz2, View.ld_unit_zero (S := S128x128) hz2, View.ld_unit_zero (S := S4x128) hz2,
    View.ld_unit_zero (S := S4) hz1, View.ld_unit_zero (S := S8x4) hz2]
  exact Pay.pay1_apply x0 x1 x2 x3 x4 x5 x6 x7 x8 x9 x10 x11 x12 b r f

/-! ## Where each window's block sits in its array -/

/-- The index maps of the tables and of the weights, decided over the grid: block index zero on every axis at
    every grid point. -/
theorem idx_whole : ∀ t : Fin cfg1.N,
    win1_1.index t = (fun _ => 0) ∧ win1_2.index t = (fun _ => 0) ∧ win1_3.index t = (fun _ => 0)
    ∧ win1_4.index t = (fun _ => 0) ∧ win1_5.index t = (fun _ => 0) ∧ win1_6.index t = (fun _ => 0)
    ∧ win1_7.index t = (fun _ => 0) ∧ win1_8.index t = (fun _ => 0) ∧ win1_9.index t = (fun _ => 0)
    ∧ win1_10.index t = (fun _ => 0) ∧ win1_11.index t = (fun _ => 0) ∧ win1_12.index t = (fun _ => 0) :=
  (by decide +kernel : ∀ t : Fin grid1.N, _)

/-- The index maps of the points and of the output, decided over the grid: at grid point `t` the point window is
    at block `(t, 0)` and the output window at block `(0, t, 0)`. -/
theorem idx_moving : ∀ t : Fin cfg1.N,
    win1_0.index t = ![t.val, 0] ∧ win1_13.index t = ![0, t.val, 0] :=
  (by decide +kernel : ∀ t : Fin grid1.N, _)

/-- The grid has 216 points. -/
theorem t_lt (t : Fin cfg1.N) : t.val < 216 := lt_of_lt_of_eq t.isLt N_1

/-- Row `r` of the point block at grid point `t` is point `512 · t + r` of the point array. -/
theorem blk0_apply (c : Dev nD) (t : Fin cfg1.N) (r : Fin 512) (d : Fin 3) (p : Fin 110592) (hp : p.val = 512 * t.val + r.val) :
    (iblk1 (F := Ideal) V c 0 t : Vec Ideal S512x3 .f32) (ix2 r d) = xs V c (ix2 p d) := by
  have e := (idx_moving t).1
  have e0 : win1_0.index t (0 : Fin 2) = t.val := congrFun e 0
  have e1 : win1_0.index t (1 : Fin 2) = 0 := congrFun e 1
  show V c main_v24 (((cfg1.win 0).blk t).view.emb (ix2 r d)) = V c main_v24 (ix2 p d)
  refine congrArg _ (funext fun a => Fin.ext ?_)
  match a with
  | ⟨0, _⟩ => show win1_0.index t (0 : Fin 2) * 512 + 1 * r.val = p.val; omega
  | ⟨1, _⟩ => show win1_0.index t (1 : Fin 2) * 3 + 1 * d.val = d.val; omega

/-- The block of each table and of each weight array, at every grid point, is the whole array: its block index is
    zero on every axis, so an element of the block sits at its own coordinates. -/
theorem blk_whole (c : Dev nD) (t : Fin cfg1.N) :
    (iblk1 (F := Ideal) V c 1 t : Vec Ideal S8x128 .f32) = s0 V c
    ∧ (iblk1 (F := Ideal) V c 2 t : Vec Ideal S8x128 .f32) = t0 V c
    ∧ (iblk1 (F := Ideal) V c 3 t : Vec Ideal S8x128 .f32) = s1 V c
    ∧ (iblk1 (F := Ideal) V c 4 t : Vec Ideal S8x128 .f32) = t1 V c
    ∧ (iblk1 (F := Ideal) V c 5 t : Vec Ideal S8x4 .f32) = s2 V c
    ∧ (iblk1 (F := Ideal) V c 6 t : Vec Ideal S8x4 .f32) = t2 V c
    ∧ (iblk1 (F := Ideal) V c 7 t : Vec Ideal S128x3 .f32) = w0 V c
    ∧ (iblk1 (F := Ideal) V c 8 t : Vec Ideal S128 .f32) = c0 V c
    ∧ (iblk1 (F := Ideal) V c 9 t : Vec Ideal S128x128 .f32) = w1 V c
    ∧ (iblk1 (F := Ideal) V c 10 t : Vec Ideal S128 .f32) = c1 V c
    ∧ (iblk1 (F := Ideal) V c 11 t : Vec Ideal S4x128 .f32) = w2 V c
    ∧ (iblk1 (F := Ideal) V c 12 t : Vec Ideal S4 .f32) = c2 V c := by
  obtain ⟨e1, e2, e3, e4, e5, e6, e7, e8, e9, e10, e11, e12⟩ := idx_whole t
  refine ⟨funext fun y => ?_, funext fun y => ?_, funext fun y => ?_, funext fun y => ?_, funext fun y => ?_, funext fun y => ?_,
    funext fun y => ?_, funext fun y => ?_, funext fun y => ?_, funext fun y => ?_, funext fun y => ?_, funext fun y => ?_⟩
  · show V c main_v5 (((cfg1.win 1).blk t).view.emb y) = V c main_v5 y
    exact congrArg _ (funext fun a => Fin.ext (win1_1.rect_emb_val_of_index_zero t a (congrFun e1 a) y))
  · show V c main_v6 (((cfg1.win 2).blk t).view.emb y) = V c main_v6 y
    exact congrArg _ (funext fun a => Fin.ext (win1_2.rect_emb_val_of_index_zero t a (congrFun e2 a) y))
  · show V c main_v12 (((cfg1.win 3).blk t).view.emb y) = V c main_v12 y
    exact congrArg _ (funext fun a => Fin.ext (win1_3.rect_emb_val_of_index_zero t a (congrFun e3 a) y))
  · show V c main_v13 (((cfg1.win 4).blk t).view.emb y) = V c main_v13 y
    exact congrArg _ (funext fun a => Fin.ext (win1_4.rect_emb_val_of_index_zero t a (congrFun e4 a) y))
  · show V c main_v19 (((cfg1.win 5).blk t).view.emb y) = V c main_v19 y
    exact congrArg _ (funext fun a => Fin.ext (win1_5.rect_emb_val_of_index_zero t a (congrFun e5 a) y))
  · show V c main_v20 (((cfg1.win 6).blk t).view.emb y) = V c main_v20 y
    exact congrArg _ (funext fun a => Fin.ext (win1_6.rect_emb_val_of_index_zero t a (congrFun e6 a) y))
  · show V c main_arg3 (((cfg1.win 7).blk t).view.emb y) = V c main_arg3 y
    exact congrArg _ (funext fun a => Fin.ext (win1_7.rect_emb_val_of_index_zero t a (congrFun e7 a) y))
  · show V c main_arg4 (((cfg1.win 8).blk t).view.emb y) = V c main_arg4 y
    exact congrArg _ (funext fun a => Fin.ext (win1_8.rect_emb_val_of_index_zero t a (congrFun e8 a) y))
  · show V c main_arg7 (((cfg1.win 9).blk t).view.emb y) = V c main_arg7 y
    exact congrArg _ (funext fun a => Fin.ext (win1_9.rect_emb_val_of_index_zero t a (congrFun e9 a) y))
  · show V c main_arg8 (((cfg1.win 10).blk t).view.emb y) = V c main_arg8 y
    exact congrArg _ (funext fun a => Fin.ext (win1_10.rect_emb_val_of_index_zero t a (congrFun e10 a) y))
  · show V c main_arg11 (((cfg1.win 11).blk t).view.emb y) = V c main_arg11 y
    exact congrArg _ (funext fun a => Fin.ext (win1_11.rect_emb_val_of_index_zero t a (congrFun e11 a) y))
  · show V c main_arg12 (((cfg1.win 12).blk t).view.emb y) = V c main_arg12 y
    exact congrArg _ (funext fun a => Fin.ext (win1_12.rect_emb_val_of_index_zero t a (congrFun e12 a) y))

/-- Element `(b, r, f)` of the output block at grid point `t` sits in the output array at `(b, 512 · t + r, f)`. -/
theorem emb_out (t : Fin cfg1.N) (b : Fin 8) (r : Fin 512) (f : Fin 4) (p : Fin 110592) (hp : p.val = 512 * t.val + r.val) :
    ((cfg1.win 13).blk t).view.emb (ix3 b r f) = (ix3 b p f : S8x110592x4.Idx) := by
  have e := (idx_moving t).2
  have e0 : win1_13.index t (0 : Fin 3) = 0 := congrFun e 0
  have e1 : win1_13.index t (1 : Fin 3) = t.val := congrFun e 1
  have e2 : win1_13.index t (2 : Fin 3) = 0 := congrFun e 2
  funext a; apply Fin.ext
  match a with
  | ⟨0, _⟩ => show win1_13.index t (0 : Fin 3) * 8 + 1 * b.val = b.val; omega
  | ⟨1, _⟩ => show win1_13.index t (1 : Fin 3) * 512 + 1 * r.val = p.val; omega
  | ⟨2, _⟩ => show win1_13.index t (2 : Fin 3) * 4 + 1 * f.val = f.val; omega

/-! ## The output array as one function, and the blocks as its restrictions -/

/-- Output `f` of the perceptron at point `p` of the region's point array, for batch row `b`. -/
abbrev pointOut (c : Dev nD) (b : Fin 8) (p : Fin 110592) (f : Fin 4) : EReal :=
  outAt (fun d => xs V c (ix2 p d)) (s0 V c) (t0 V c) (s1 V c) (t1 V c) (s2 V c) (t2 V c)
    (w0 V c) (c0 V c) (w1 V c) (c1 V c) (w2 V c) (c2 V c) b f

/-- The whole output array as ONE function of the region's arrays: element `(b, p, f)` is `pointOut b p f`. -/
abbrev wholeOut (c : Dev nD) : Vec Ideal S8x110592x4 .f32 := fun j => pointOut V c (j 0) (j 1) (j 2)

/-- WHAT GRID POINT `t` WRITES BACK is block `t` of `wholeOut`: element `(b, r, f)` of the block the body leaves is
    the perceptron at row `r` of the point block, which is point `512 · t + r`, with the whole tables and weights;
    and that element lands at `(b, 512 · t + r, f)`. -/
theorem flushed_eq (c : Dev nD) (t : Fin cfg1.N) :
    (dat1 (F := Ideal) V c).flushed 13 t = ((cfg1.win 13).blk t).view.read (Elt Ideal) (wholeOut V c) := by
  show (cfg1.win 13).cut (grid1.coords t) ((dat1 (F := Ideal) V c).after 13 t) = _
  rw [after1_13]
  funext j
  obtain ⟨b, r, f, rfl⟩ : ∃ (b : Fin 8) (r : Fin 512) (f : Fin 4), j = ix3 b r f := ⟨j 0, j 1, j 2, eq_ix3 j⟩
  have ht := t_lt t
  obtain ⟨p, hp⟩ : ∃ p : Fin 110592, p.val = 512 * t.val + r.val := ⟨⟨512 * t.val + r.val, by omega⟩, rfl⟩
  show out1_13 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (iblk1 V c 10 t) (iblk1 V c 11 t) (iblk1 V c 12 t) (ix3 b r f)
    = wholeOut V c (((cfg1.win 13).blk t).view.emb (ix3 b r f))
  rw [emb_out t b r f p hp]
  refine (out_apply (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (iblk1 V c 10 t) (iblk1 V c 11 t) (iblk1 V c 12 t) b r f).trans ?_
  obtain ⟨h1, h2, h3, h4, h5, h6, h7, h8, h9, h10, h11, h12⟩ := blk_whole V c t
  rw [h1, h2, h3, h4, h5, h6, h7, h8, h9, h10, h11, h12]
  show outAt (fun d => (iblk1 (F := Ideal) V c 0 t : Vec Ideal S512x3 .f32) (ix2 r d)) _ _ _ _ _ _ _ _ _ _ _ _ b f
    = outAt (fun d => xs V c (ix2 p d)) _ _ _ _ _ _ _ _ _ _ _ _ b f
  rw [show (fun d => (iblk1 (F := Ideal) V c 0 t : Vec Ideal S512x3 .f32) (ix2 r d)) = fun d => xs V c (ix2 p d) from
    funext fun d => blk0_apply V c t r d p hp]

/-- Every element of the output array is in the block of the grid point `p / 512`, and that point writes back. -/
theorem cover (i : S8x110592x4.Idx) :
    ∃ t : Fin cfg1.N, (cfg1.win 13).flush t = true ∧ i ∈ ((cfg1.win 13).blk t).view.set := by
  have h0 : (i 0).val < 8 := (i 0).isLt
  have h1 : (i 1).val < 110592 := (i 1).isLt
  have h2 : (i 2).val < 4 := (i 2).isLt
  obtain ⟨t, ht⟩ : ∃ t : Fin cfg1.N, t.val = (i 1).val / 512 :=
    ⟨⟨(i 1).val / 512, lt_of_lt_of_eq (by omega : (i 1).val / 512 < 216) N_1.symm⟩, rfl⟩
  have e := (idx_moving t).2
  have e0 : win1_13.index t (0 : Fin 3) = 0 := congrFun e 0
  have e1 : win1_13.index t (1 : Fin 3) = t.val := congrFun e 1
  have e2 : win1_13.index t (2 : Fin 3) = 0 := congrFun e 2
  refine ⟨t, flush1_13 t, ?_⟩
  show i ∈ ((View.whole main_v25).slice (win1_13.rect t)).set
  rw [View.set_slice_whole, Rect.mem_set_unit]
  intro a
  match a with
  | ⟨0, _⟩ => show win1_13.index t (0 : Fin 3) * 8 ≤ (i 0).val ∧ (i 0).val < win1_13.index t (0 : Fin 3) * 8 + 8; omega
  | ⟨1, _⟩ => show win1_13.index t (1 : Fin 3) * 512 ≤ (i 1).val ∧ (i 1).val < win1_13.index t (1 : Fin 3) * 512 + 512; omega
  | ⟨2, _⟩ => show win1_13.index t (2 : Fin 3) * 4 ≤ (i 2).val ∧ (i 2).val < win1_13.index t (2 : Fin 3) * 4 + 4; omega

/-- THE ARRAY after the run: every block written back is a block of `wholeOut` and the blocks cover the array, so it
    ends holding `wholeOut`. -/
theorem final (c : Dev nD) : (dat1 (F := Ideal) V c).arrAt 13 cfg1.N = wholeOut V c :=
  (dat1 (F := Ideal) V c).arrAt_eq_of_cover 13 (wholeOut V c) (fun t _ => flushed_eq V c t) cover

/-- Element `(b, p, f)` of the region's output array after its last block is written back. -/
theorem arr_apply (c : Dev nD) (b : Fin 8) (p : Fin 110592) (f : Fin 4) :
    ((dat1 (F := Ideal) V c).arrAt 13 cfg1.N : Vec Ideal S8x110592x4 .f32) (ix3 b p f)
      = outAt (fun d => xs V c (ix2 p d)) (s0 V c) (t0 V c) (s1 V c) (t1 V c) (s2 V c) (t2 V c)
          (w0 V c) (c0 V c) (w1 V c) (c1 V c) (w2 V c) (c2 V c) b f :=
  congrFun (final V c) (ix3 b p f)

end Cert.KernelIdeal.Blocks1

end
-- ==== Proof.RLevel0.lean ====
/-
  Level 0 of the reference, read at an element.

  The reference lays the level's 32768 grid points out as rows of three features, repeats them for each of the
  eight batch rows, and applies the three modulated layers to the whole `[8, 32768, ·]` array at once. Element
  `(b, p, f)` of the last layer's result is output `f` of the perceptron at point `p` for batch row `b`: every
  contraction reads one point's row, the biases and the per-batch scales and shifts are broadcast along the
  points, and the positive part is taken element by element. The scale and shift tables are the two halves of
  `z · Mᵀ + mb`; they are kept as the arrays the reference computes and are never opened.
-/
import proofs.«177964_j13537736917463_1_alg».proof.Proof.Gen.ReferenceIdeal.Read
import proofs.«177964_j13537736917463_1_alg».proof.Proof.Row

noncomputable section

namespace Cert.ReferenceIdeal.Level0

open Cert.ReferenceIdeal Cert.ReferenceIdeal.Read Cert.Film
open Idealize.ShloMosaic Idealize.ShloMosaic.ValueIdx

variable (x0 : (⟨S8x128, .f32⟩ : BufTy).Contents (Elt Ideal)) (x1 : (⟨S32x32x32x3, .f32⟩ : BufTy).Contents (Elt Ideal))
  (x3 : (⟨S128x3, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal))
  (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal))
  (x11 : (⟨S4x128, .f32⟩ : BufTy).Contents (Elt Ideal)) (x12 : (⟨S4, .f32⟩ : BufTy).Contents (Elt Ideal)) (x13 : (⟨S8x128, .f32⟩ : BufTy).Contents (Elt Ideal)) (x14 : (⟨S8, .f32⟩ : BufTy).Contents (Elt Ideal))

/-- The bias of unit `o` is read at `o` whatever the batch row and the point. -/
theorem bias0_idx (b : Fin 8) (p : Fin 32768) (o : Fin 128) :
    idx_main_v10 (idx_main_v11 (ix3 b p o)) = ix1 o :=
  funext fun a => Fin.ext (by match a with | ⟨0, _⟩ => rfl)

/-- The scale of unit `o` for batch row `b` is read at `(b, o)` whatever the point. -/
theorem scale0_idx (b : Fin 8) (p : Fin 32768) (o : Fin 128) :
    idx_main_v13 (idx_main_v16 (ix3 b p o)) = ix2 b o :=
  funext fun a => Fin.ext (by match a with | ⟨0, _⟩ => rfl | ⟨1, _⟩ => rfl)

/-- The shift of unit `o` for batch row `b` is read at `(b, o)` whatever the point. -/
theorem shift0_idx (b : Fin 8) (p : Fin 32768) (o : Fin 128) :
    idx_main_v18 (idx_main_v19 (ix3 b p o)) = ix2 b o :=
  funext fun a => Fin.ext (by match a with | ⟨0, _⟩ => rfl | ⟨1, _⟩ => rfl)

/-- The weight met by feature `k` in unit `o` is `W₀(o, k)`. -/
theorem weight0_idx (b : Fin 8) (p : Fin 32768) (o : Fin 128) (k : Fin 3) :
    ridx_main_v9 (ix3 b p o) k = ix2 o k :=
  funext fun a => Fin.ext (by match a with | ⟨0, _⟩ => rfl | ⟨1, _⟩ => rfl)

/-- Feature `k` of row `p` of the flattened, repeated points is feature `k` of the `p`-th grid point: the
    row-major position `p * 3 + k` splits into the grid coordinates by quotients and remainders. -/
theorem point0_idx (b : Fin 8) (p : Fin 32768) (o : Fin 128) (k : Fin 3) :
    idx_main_v0 (idx_main_v1 (lidx_main_v9 (ix3 b p o) k)) = cell32 p k :=
  funext fun a => Fin.ext (by
    have hp := p.isLt
    have hk := k.isLt
    match a with
    | ⟨0, _⟩ => show ((0 * 32768 + p.val) * 3 + k.val) / 3072 = p.val / 1024; omega
    | ⟨1, _⟩ => show ((0 * 32768 + p.val) * 3 + k.val) / 96 % 32 = p.val / 32 % 32; omega
    | ⟨2, _⟩ => show ((0 * 32768 + p.val) * 3 + k.val) / 3 % 32 = p.val % 32; omega
    | ⟨3, _⟩ => show ((0 * 32768 + p.val) * 3 + k.val) % 3 = k.val; omega)

/-- Element `(b, p, o)` of the first layer's result is unit `o` of the first hidden layer at point `p`. -/
theorem layer0_apply (b : Fin 8) (p : Fin 32768) (o : Fin 128) :
    val_main_v21 (F := Ideal) x0 x1 x3 x4 x5 x6 (ix3 b p o)
      = hid0 (fun d => x1 (cell32 p d)) (val_main_v7 (F := Ideal) x0 x5 x6) (val_main_v8 (F := Ideal) x0 x5 x6) x3 x4 b o := by
  rw [val_main_v21_apply, val_main_v20_apply, val_main_v17_apply, val_main_v12_apply, val_main_v9_apply,
    val_main_v11_apply, val_main_v10_apply, val_main_v16_apply, val_main_v15_apply, val_main_v14_apply,
    val_main_cst_apply, val_main_v13_apply, val_main_v19_apply, val_main_v18_apply, val_main_call0_v0_apply,
    val_main_call0_cst_apply, bias0_idx, scale0_idx, shift0_idx]
  have hs : (∑ k : Fin 3, val_main_v1 (F := Ideal) x1 (lidx_main_v9 (ix3 b p o) k) * x3 (ridx_main_v9 (ix3 b p o) k))
      = ∑ k : Fin 3, x1 (cell32 p k) * x3 (ix2 o k) :=
    Finset.sum_congr rfl fun k _ => by
      rw [val_main_v1_apply, val_main_v0_apply, point0_idx, weight0_idx]
  rw [hs]
  rfl

/-- The second layer's bias of unit `o` is read at `o`. -/
theorem bias1_idx (b : Fin 8) (p : Fin 32768) (o : Fin 128) :
    idx_main_v30 (idx_main_v31 (ix3 b p o)) = ix1 o :=
  funext fun a => Fin.ext (by match a with | ⟨0, _⟩ => rfl)

/-- The second layer's scale of unit `o` for batch row `b` is read at `(b, o)`. -/
theorem scale1_idx (b : Fin 8) (p : Fin 32768) (o : Fin 128) :
    idx_main_v33 (idx_main_v36 (ix3 b p o)) = ix2 b o :=
  funext fun a => Fin.ext (by match a with | ⟨0, _⟩ => rfl | ⟨1, _⟩ => rfl)

/-- The second layer's shift of unit `o` for batch row `b` is read at `(b, o)`. -/
theorem shift1_idx (b : Fin 8) (p : Fin 32768) (o : Fin 128) :
    idx_main_v38 (idx_main_v39 (ix3 b p o)) = ix2 b o :=
  funext fun a => Fin.ext (by match a with | ⟨0, _⟩ => rfl | ⟨1, _⟩ => rfl)

/-- The weight met by hidden unit `k` in unit `o` of the second layer is `W₁(o, k)`. -/
theorem weight1_idx (b : Fin 8) (p : Fin 32768) (o : Fin 128) (k : Fin 128) :
    ridx_main_v29 (ix3 b p o) k = ix2 o k :=
  funext fun a => Fin.ext (by match a with | ⟨0, _⟩ => rfl | ⟨1, _⟩ => rfl)

/-- The activation met by unit `o` of the second layer at summand `k` is element `(b, p, k)` of the first layer. -/
theorem act1_idx (b : Fin 8) (p : Fin 32768) (o : Fin 128) (k : Fin 128) :
    lidx_main_v29 (ix3 b p o) k = ix3 b p k :=
  funext fun a => Fin.ext (by match a with | ⟨0, _⟩ => rfl | ⟨1, _⟩ => rfl | ⟨2, _⟩ => rfl)

/-- Element `(b, p, o)` of the second layer's result is unit `o` of the second hidden layer at point `p`. -/
theorem layer1_apply (b : Fin 8) (p : Fin 32768) (o : Fin 128) :
    val_main_v41 (F := Ideal) x0 x1 x3 x4 x5 x6 x7 x8 x9 x10 (ix3 b p o)
      = hid1 (fun d => x1 (cell32 p d)) (val_main_v7 (F := Ideal) x0 x5 x6) (val_main_v8 (F := Ideal) x0 x5 x6)
          (val_main_v27 (F := Ideal) x0 x9 x10) (val_main_v28 (F := Ideal) x0 x9 x10) x3 x4 x7 x8 b o := by
  rw [val_main_v41_apply, val_main_v40_apply, val_main_v37_apply, val_main_v32_apply, val_main_v29_apply,
    val_main_v31_apply, val_main_v30_apply, val_main_v36_apply, val_main_v35_apply, val_main_v34_apply,
    val_main_cst_0_apply, val_main_v33_apply, val_main_v39_apply, val_main_v38_apply, val_main_call1_v0_apply,
    val_main_call1_cst_apply, bias1_idx, scale1_idx, shift1_idx]
  have hs : (∑ k : Fin 128, val_main_v21 (F := Ideal) x0 x1 x3 x4 x5 x6 (lidx_main_v29 (ix3 b p o) k) * x7 (ridx_main_v29 (ix3 b p o) k))
      = ∑ k : Fin 128, hid0 (fun d => x1 (cell32 p d)) (val_main_v7 (F := Ideal) x0 x5 x6) (val_main_v8 (F := Ideal) x0 x5 x6) x3 x4 b k
          * x7 (ix2 o k) :=
    Finset.sum_congr rfl fun k _ => by
      rw [act1_idx, weight1_idx, layer0_apply]
  rw [hs]
  rfl

/-- The last layer's bias of output `f` is read at `f`. -/
theorem bias2_idx (b : Fin 8) (p : Fin 32768) (f : Fin 4) :
    idx_main_v50 (idx_main_v51 (ix3 b p f)) = ix1 f :=
  funext fun a => Fin.ext (by match a with | ⟨0, _⟩ => rfl)

/-- The last layer's scale of output `f` for batch row `b` is read at `(b, f)`. -/
theorem scale2_idx (b : Fin 8) (p : Fin 32768) (f : Fin 4) :
    idx_main_v53 (idx_main_v56 (ix3 b p f)) = ix2 b f :=
  funext fun a => Fin.ext (by match a with | ⟨0, _⟩ => rfl | ⟨1, _⟩ => rfl)

/-- The last layer's shift of output `f` for batch row `b` is read at `(b, f)`. -/
theorem shift2_idx (b : Fin 8) (p : Fin 32768) (f : Fin 4) :
    idx_main_v58 (idx_main_v59 (ix3 b p f)) = ix2 b f :=
  funext fun a => Fin.ext (by match a with | ⟨0, _⟩ => rfl | ⟨1, _⟩ => rfl)

/-- The weight met by hidden unit `k` in output `f` is `W₂(f, k)`. -/
theorem weight2_idx (b : Fin 8) (p : Fin 32768) (f : Fin 4) (k : Fin 128) :
    ridx_main_v49 (ix3 b p f) k = ix2 f k :=
  funext fun a => Fin.ext (by match a with | ⟨0, _⟩ => rfl | ⟨1, _⟩ => rfl)

/-- The activation met by output `f` at summand `k` is element `(b, p, k)` of the second layer. -/
theorem act2_idx (b : Fin 8) (p : Fin 32768) (f : Fin 4) (k : Fin 128) :
    lidx_main_v49 (ix3 b p f) k = ix3 b p k :=
  funext fun a => Fin.ext (by match a with | ⟨0, _⟩ => rfl | ⟨1, _⟩ => rfl | ⟨2, _⟩ => rfl)

/-- Element `(b, p, f)` of level 0's result, before it is flattened. The tables are the stages this level computes them at
    (`val_main_v7` … `val_main_v48`). -/
theorem level_apply (b : Fin 8) (p : Fin 32768) (f : Fin 4) :
    val_main_v60 (F := Ideal) x0 x1 x3 x4 x5 x6 x7 x8 x9 x10 x11 x12 x13 x14 (ix3 b p f)
      = outAt (fun d => x1 (cell32 p d))
          (val_main_v7 (F := Ideal) x0 x5 x6) (val_main_v8 (F := Ideal) x0 x5 x6)
          (val_main_v27 (F := Ideal) x0 x9 x10) (val_main_v28 (F := Ideal) x0 x9 x10)
          (val_main_v47 (F := Ideal) x0 x13 x14) (val_main_v48 (F := Ideal) x0 x13 x14)
          x3 x4 x7 x8 x11 x12 b f := by
  rw [val_main_v60_apply, val_main_v57_apply, val_main_v52_apply, val_main_v49_apply,
    val_main_v51_apply, val_main_v50_apply, val_main_v56_apply, val_main_v55_apply, val_main_v54_apply,
    val_main_cst_1_apply, val_main_v53_apply, val_main_v59_apply, val_main_v58_apply,
    bias2_idx, scale2_idx, shift2_idx]
  have hs : (∑ k : Fin 128, val_main_v41 (F := Ideal) x0 x1 x3 x4 x5 x6 x7 x8 x9 x10 (lidx_main_v49 (ix3 b p f) k) * x11 (ridx_main_v49 (ix3 b p f) k))
      = ∑ k : Fin 128, hid1 (fun d => x1 (cell32 p d)) (val_main_v7 (F := Ideal) x0 x5 x6) (val_main_v8 (F := Ideal) x0 x5 x6)
          (val_main_v27 (F := Ideal) x0 x9 x10) (val_main_v28 (F := Ideal) x0 x9 x10) x3 x4 x7 x8 b k
          * x11 (ix2 f k) :=
    Finset.sum_congr rfl fun k _ => by
      rw [act2_idx, weight2_idx, layer1_apply]
  rw [hs]
  rfl

end Cert.ReferenceIdeal.Level0

end
-- ==== Proof.RLevel1.lean ====
/-
  Level 1 of the reference, read at an element.

  The reference lays the level's 110592 grid points out as rows of three features, repeats them for each of the
  eight batch rows, and applies the three modulated layers to the whole `[8, 110592, ·]` array at once. Element
  `(b, p, f)` of the last layer's result is output `f` of the perceptron at point `p` for batch row `b`: every
  contraction reads one point's row, the biases and the per-batch scales and shifts are broadcast along the
  points, and the positive part is taken element by element. The scale and shift tables are the two halves of
  `z · Mᵀ + mb`; they are kept as the arrays the reference computes and are never opened.
-/
import proofs.«177964_j13537736917463_1_alg».proof.Proof.Gen.ReferenceIdeal.Read
import proofs.«177964_j13537736917463_1_alg».proof.Proof.Row

noncomputable section

namespace Cert.ReferenceIdeal.Level1

open Cert.ReferenceIdeal Cert.ReferenceIdeal.Read Cert.Film
open Idealize.ShloMosaic Idealize.ShloMosaic.ValueIdx

variable (x0 : (⟨S8x128, .f32⟩ : BufTy).Contents (Elt Ideal)) (x2 : (⟨S48x48x48x3, .f32⟩ : BufTy).Contents (Elt Ideal))
  (x3 : (⟨S128x3, .f32⟩ : BufTy).Contents (Elt Ideal)) (x4 : (⟨S128, .f32⟩ : BufTy).Contents (Elt Ideal)) (x5 : (⟨S256x128, .f32⟩ : BufTy).Contents (Elt Ideal)) (x6 : (⟨S256, .f32⟩ : BufTy).Contents (Elt Ideal))
  (x7 : (⟨S128x128, .f32⟩ : BufTy).Contents (Elt Ideal)) (x8 : (⟨S128, .f32⟩ : BufTy).Contents (Elt Ideal)) (x9 : (⟨S256x128, .f32⟩ : BufTy).Contents (Elt Ideal)) (x10 : (⟨S256, .f32⟩ : BufTy).Contents (Elt Ideal))
  (x11 : (⟨S4x128, .f32⟩ : BufTy).Contents (Elt Ideal)) (x12 : (⟨S4, .f32⟩ : BufTy).Contents (Elt Ideal)) (x13 : (⟨S8x128, .f32⟩ : BufTy).Contents (Elt Ideal)) (x14 : (⟨S8, .f32⟩ : BufTy).Contents (Elt Ideal))

/-- This level's first-layer scale table is the one level 0 computes: the same operations on the same arguments. -/
theorem scale0_table : val_main_v69 (F := Ideal) x0 x5 x6 = val_main_v7 (F := Ideal) x0 x5 x6 := rfl

/-- This level's first-layer shift table is the one level 0 computes. -/
theorem shift0_table : val_main_v70 (F := Ideal) x0 x5 x6 = val_main_v8 (F := Ideal) x0 x5 x6 := rfl

/-- This level's second-layer scale table is the one level 0 computes. -/
theorem scale1_table : val_main_v89 (F := Ideal) x0 x9 x10 = val_main_v27 (F := Ideal) x0 x9 x10 := rfl

/-- This level's second-layer shift table is the one level 0 computes. -/
theorem shift1_table : val_main_v90 (F := Ideal) x0 x9 x10 = val_main_v28 (F := Ideal) x0 x9 x10 := rfl

/-- This level's last-layer scale table is the one level 0 computes. -/
theorem scale2_table : val_main_v109 (F := Ideal) x0 x13 x14 = val_main_v47 (F := Ideal) x0 x13 x14 := rfl

/-- This level's last-layer shift table is the one level 0 computes. -/
theorem shift2_table : val_main_v110 (F := Ideal) x0 x13 x14 = val_main_v48 (F := Ideal) x0 x13 x14 := rfl

/-- The bias of unit `o` is read at `o` whatever the batch row and the point. -/
theorem bias0_idx (b : Fin 8) (p : Fin 110592) (o : Fin 128) :
    idx_main_v72 (idx_main_v73 (ix3 b p o)) = ix1 o :=
  funext fun a => Fin.ext (by match a with | ⟨0, _⟩ => rfl)

/-- The scale of unit `o` for batch row `b` is read at `(b, o)` whatever the point. -/
theorem scale0_idx (b : Fin 8) (p : Fin 110592) (o : Fin 128) :
    idx_main_v75 (idx_main_v78 (ix3 b p o)) = ix2 b o :=
  funext fun a => Fin.ext (by match a with | ⟨0, _⟩ => rfl | ⟨1, _⟩ => rfl)

/-- The shift of unit `o` for batch row `b` is read at `(b, o)` whatever the point. -/
theorem shift0_idx (b : Fin 8) (p : Fin 110592) (o : Fin 128) :
    idx_main_v80 (idx_main_v81 (ix3 b p o)) = ix2 b o :=
  funext fun a => Fin.ext (by match a with | ⟨0, _⟩ => rfl | ⟨1, _⟩ => rfl)

/-- The weight met by feature `k` in unit `o` is `W₀(o, k)`. -/
theorem weight0_idx (b : Fin 8) (p : Fin 110592) (o : Fin 128) (k : Fin 3) :
    ridx_main_v71 (ix3 b p o) k = ix2 o k :=
  funext fun a => Fin.ext (by match a with | ⟨0, _⟩ => rfl | ⟨1, _⟩ => rfl)

/-- Feature `k` of row `p` of the flattened, repeated points is feature `k` of the `p`-th grid point: the
    row-major position `p * 3 + k` splits into the grid coordinates by quotients and remainders. -/
theorem point0_idx (b : Fin 8) (p : Fin 110592) (o : Fin 128) (k : Fin 3) :
    idx_main_v62 (idx_main_v63 (lidx_main_v71 (ix3 b p o) k)) = cell48 p k :=
  funext fun a => Fin.ext (by
    have hp := p.isLt
    have hk := k.isLt
    match a with
    | ⟨0, _⟩ => show ((0 * 110592 + p.val) * 3 + k.val) / 6912 = p.val / 2304; omega
    | ⟨1, _⟩ => show ((0 * 110592 + p.val) * 3 + k.val) / 144 % 48 = p.val / 48 % 48; omega
    | ⟨2, _⟩ => show ((0 * 110592 + p.val) * 3 + k.val) / 3 % 48 = p.val % 48; omega
    | ⟨3, _⟩ => show ((0 * 110592 + p.val) * 3 + k.val) % 3 = k.val; omega)

/-- Element `(b, p, o)` of the first layer's result is unit `o` of the first hidden layer at point `p`. -/
theorem layer0_apply (b : Fin 8) (p : Fin 110592) (o : Fin 128) :
    val_main_v83 (F := Ideal) x0 x2 x3 x4 x5 x6 (ix3 b p o)
      = hid0 (fun d => x2 (cell48 p d)) (val_main_v7 (F := Ideal) x0 x5 x6) (val_main_v8 (F := Ideal) x0 x5 x6) x3 x4 b o := by
  rw [val_main_v83_apply, val_main_v82_apply, val_main_v79_apply, val_main_v74_apply, val_main_v71_apply,
    val_main_v73_apply, val_main_v72_apply, val_main_v78_apply, val_main_v77_apply, val_main_v76_apply,
    val_main_cst_2_apply, val_main_v75_apply, val_main_v81_apply, val_main_v80_apply, val_main_call2_v0_apply,
    val_main_call2_cst_apply, bias0_idx, scale0_idx, shift0_idx, scale0_table, shift0_table]
  have hs : (∑ k : Fin 3, val_main_v63 (F := Ideal) x2 (lidx_main_v71 (ix3 b p o) k) * x3 (ridx_main_v71 (ix3 b p o) k))
      = ∑ k : Fin 3, x2 (cell48 p k) * x3 (ix2 o k) :=
    Finset.sum_congr rfl fun k _ => by
      rw [val_main_v63_apply, val_main_v62_apply, point0_idx, weight0_idx]
  rw [hs]
  rfl

/-- The second layer's bias of unit `o` is read at `o`. -/
theorem bias1_idx (b : Fin 8) (p : Fin 110592) (o : Fin 128) :
    idx_main_v92 (idx_main_v93 (ix3 b p o)) = ix1 o :=
  funext fun a => Fin.ext (by match a with | ⟨0, _⟩ => rfl)

/-- The second layer's scale of unit `o` for batch row `b` is read at `(b, o)`. -/
theorem scale1_idx (b : Fin 8) (p : Fin 110592) (o : Fin 128) :
    idx_main_v95 (idx_main_v98 (ix3 b p o)) = ix2 b o :=
  funext fun a => Fin.ext (by match a with | ⟨0, _⟩ => rfl | ⟨1, _⟩ => rfl)

/-- The second layer's shift of unit `o` for batch row `b` is read at `(b, o)`. -/
theorem shift1_idx (b : Fin 8) (p : Fin 110592) (o : Fin 128) :
    idx_main_v100 (idx_main_v101 (ix3 b p o)) = ix2 b o :=
  funext fun a => Fin.ext (by match a with | ⟨0, _⟩ => rfl | ⟨1, _⟩ => rfl)

/-- The weight met by hidden unit `k` in unit `o` of the second layer is `W₁(o, k)`. -/
theorem weight1_idx (b : Fin 8) (p : Fin 110592) (o : Fin 128) (k : Fin 128) :
    ridx_main_v91 (ix3 b p o) k = ix2 o k :=
  funext fun a => Fin.ext (by match a with | ⟨0, _⟩ => rfl | ⟨1, _⟩ => rfl)

/-- The activation met by unit `o` of the second layer at summand `k` is element `(b, p, k)` of the first layer. -/
theorem act1_idx (b : Fin 8) (p : Fin 110592) (o : Fin 128) (k : Fin 128) :
    lidx_main_v91 (ix3 b p o) k = ix3 b p k :=
  funext fun a => Fin.ext (by match a with | ⟨0, _⟩ => rfl | ⟨1, _⟩ => rfl | ⟨2, _⟩ => rfl)

/-- Element `(b, p, o)` of the second layer's result is unit `o` of the second hidden layer at point `p`. -/
theorem layer1_apply (b : Fin 8) (p : Fin 110592) (o : Fin 128) :
    val_main_v103 (F := Ideal) x0 x2 x3 x4 x5 x6 x7 x8 x9 x10 (ix3 b p o)
      = hid1 (fun d => x2 (cell48 p d)) (val_main_v7 (F := Ideal) x0 x5 x6) (val_main_v8 (F := Ideal) x0 x5 x6)
          (val_main_v27 (F := Ideal) x0 x9 x10) (val_main_v28 (F := Ideal) x0 x9 x10) x3 x4 x7 x8 b o := by
  rw [val_main_v103_apply, val_main_v102_apply, val_main_v99_apply, val_main_v94_apply, val_main_v91_apply,
    val_main_v93_apply, val_main_v92_apply, val_main_v98_apply, val_main_v97_apply, val_main_v96_apply,
    val_main_cst_3_apply, val_main_v95_apply, val_main_v101_apply, val_main_v100_apply, val_main_call3_v0_apply,
    val_main_call3_cst_apply, bias1_idx, scale1_idx, shift1_idx, scale1_table, shift1_table]
  have hs : (∑ k : Fin 128, val_main_v83 (F := Ideal) x0 x2 x3 x4 x5 x6 (lidx_main_v91 (ix3 b p o) k) * x7 (ridx_main_v91 (ix3 b p o) k))
      = ∑ k : Fin 128, hid0 (fun d => x2 (cell48 p d)) (val_main_v7 (F := Ideal) x0 x5 x6) (val_main_v8 (F := Ideal) x0 x5 x6) x3 x4 b k
          * x7 (ix2 o k) :=
    Finset.sum_congr rfl fun k _ => by
      rw [act1_idx, weight1_idx, layer0_apply]
  rw [hs]
  rfl

/-- The last layer's bias of output `f` is read at `f`. -/
theorem bias2_idx (b : Fin 8) (p : Fin 110592) (f : Fin 4) :
    idx_main_v112 (idx_main_v113 (ix3 b p f)) = ix1 f :=
  funext fun a => Fin.ext (by match a with | ⟨0, _⟩ => rfl)

/-- The last layer's scale of output `f` for batch row `b` is read at `(b, f)`. -/
theorem scale2_idx (b : Fin 8) (p : Fin 110592) (f : Fin 4) :
    idx_main_v115 (idx_main_v118 (ix3 b p f)) = ix2 b f :=
  funext fun a => Fin.ext (by match a with | ⟨0, _⟩ => rfl | ⟨1, _⟩ => rfl)

/-- The last layer's shift of output `f` for batch row `b` is read at `(b, f)`. -/
theorem shift2_idx (b : Fin 8) (p : Fin 110592) (f : Fin 4) :
    idx_main_v120 (idx_main_v121 (ix3 b p f)) = ix2 b f :=
  funext fun a => Fin.ext (by match a with | ⟨0, _⟩ => rfl | ⟨1, _⟩ => rfl)

/-- The weight met by hidden unit `k` in output `f` is `W₂(f, k)`. -/
theorem weight2_idx (b : Fin 8) (p : Fin 110592) (f : Fin 4) (k : Fin 128) :
    ridx_main_v111 (ix3 b p f) k = ix2 f k :=
  funext fun a => Fin.ext (by match a with | ⟨0, _⟩ => rfl | ⟨1, _⟩ => rfl)

/-- The activation met by output `f` at summand `k` is element `(b, p, k)` of the second layer. -/
theorem act2_idx (b : Fin 8) (p : Fin 110592) (f : Fin 4) (k : Fin 128) :
    lidx_main_v111 (ix3 b p f) k = ix3 b p k :=
  funext fun a => Fin.ext (by match a with | ⟨0, _⟩ => rfl | ⟨1, _⟩ => rfl | ⟨2, _⟩ => rfl)

/-- Element `(b, p, f)` of level 1's result, before it is flattened. The tables are written with the stages of
    the reference's first computation of them, in level 0 (`val_main_v7` … `val_main_v48`); this level computes them
    again by the same operations (`val_main_v69` … `val_main_v110`). -/
theorem level_apply (b : Fin 8) (p : Fin 110592) (f : Fin 4) :
    val_main_v122 (F := Ideal) x0 x2 x3 x4 x5 x6 x7 x8 x9 x10 x11 x12 x13 x14 (ix3 b p f)
      = outAt (fun d => x2 (cell48 p d))
          (val_main_v7 (F := Ideal) x0 x5 x6) (val_main_v8 (F := Ideal) x0 x5 x6)
          (val_main_v27 (F := Ideal) x0 x9 x10) (val_main_v28 (F := Ideal) x0 x9 x10)
          (val_main_v47 (F := Ideal) x0 x13 x14) (val_main_v48 (F := Ideal) x0 x13 x14)
          x3 x4 x7 x8 x11 x12 b f := by
  rw [val_main_v122_apply, val_main_v119_apply, val_main_v114_apply, val_main_v111_apply,
    val_main_v113_apply, val_main_v112_apply, val_main_v118_apply, val_main_v117_apply, val_main_v116_apply,
    val_main_cst_4_apply, val_main_v115_apply, val_main_v121_apply, val_main_v120_apply,
    bias2_idx, scale2_idx, shift2_idx, scale2_table, shift2_table]
  have hs : (∑ k : Fin 128, val_main_v103 (F := Ideal) x0 x2 x3 x4 x5 x6 x7 x8 x9 x10 (lidx_main_v111 (ix3 b p f) k) * x11 (ridx_main_v111 (ix3 b p f) k))
      = ∑ k : Fin 128, hid1 (fun d => x2 (cell48 p d)) (val_main_v7 (F := Ideal) x0 x5 x6) (val_main_v8 (F := Ideal) x0 x5 x6)
          (val_main_v27 (F := Ideal) x0 x9 x10) (val_main_v28 (F := Ideal) x0 x9 x10) x3 x4 x7 x8 b k
          * x11 (ix2 f k) :=
    Finset.sum_congr rfl fun k _ => by
      rw [act2_idx, weight2_idx, layer1_apply]
  rw [hs]
  rfl

end Cert.ReferenceIdeal.Level1

end
-- ==== Proof.Bridge.lean ====
/-
  The kernel's result is the reference's result of the same arguments.

  Each region's output array equals, element by element, the reference's result for that level: both are the
  perceptron applied point by point, with the same tables, weights and biases, and the region's point array is the
  grid the reference reshapes. The kernel's result array is the join of the two flattened outputs and so is the
  reference's last stage; hence the kernel's run ends with the reference's composed term of the launched arguments.
-/
import proofs.«177964_j13537736917463_1_alg».proof.Proof.KRun
import proofs.«177964_j13537736917463_1_alg».proof.Proof.KFold
import proofs.«177964_j13537736917463_1_alg».proof.Proof.KBlocks0
import proofs.«177964_j13537736917463_1_alg».proof.Proof.KBlocks1
import proofs.«177964_j13537736917463_1_alg».proof.Proof.RLevel0
import proofs.«177964_j13537736917463_1_alg».proof.Proof.RLevel1

set_option maxRecDepth 16384

noncomputable section

namespace Cert.KernelIdeal.Bridge

open Cert.KernelIdeal Cert.KernelIdeal.Gen Cert.KernelIdeal.Fold Cert.Film
open Idealize.ShloMosaic Idealize.ShloMosaic.TcCoe Idealize.ShloMosaic.ValueIdx Idealize.SL.Sem

variable (m : (ℓ : Loc nD τ sig) → Buf (Elt Ideal) ℓ) (ρ : Dev nD → PrngReg)

/-- Region 0's output array is the reference's level-0 result of the launched arguments: element `(b, p, f)` of
    either is the perceptron's output `f` at point `p` of the first grid for batch row `b`, the
    point's features being the grid's entries at row-major positions `3p, 3p + 1, 3p + 2`. -/
theorem out0_eq (c : Dev nD) : out0 m ρ c = Cert.ReferenceIdeal.Read.val_main_v60 (F := Ideal) (a0 m c) (a1 m c) (a3 m c) (a4 m c) (a5 m c) (a6 m c) (a7 m c) (a8 m c) (a9 m c) (a10 m c) (a11 m c) (a12 m c) (a13 m c) (a14 m c) := by
  funext j
  obtain ⟨b, p, f, rfl⟩ : ∃ (b : Fin 8) (p : Fin 32768) (f : Fin 4), j = ix3 b p f := ⟨j 0, j 1, j 2, eq_ix3 j⟩
  refine (Blocks0.arr_apply (V1 m ρ) c b p f).trans ?_
  refine Eq.trans ?_ (Cert.ReferenceIdeal.Level0.level_apply (a0 m c) (a1 m c) (a3 m c) (a4 m c) (a5 m c) (a6 m c) (a7 m c) (a8 m c) (a9 m c) (a10 m c) (a11 m c) (a12 m c) (a13 m c) (a14 m c) b p f).symm
  have hx : (fun d : Fin 3 => Blocks0.xs (V1 m ρ) c (ix2 p d)) = fun d => a1 m c (cell32 p d) := funext fun d => by
    show (V1 m ρ c main_v21 : Vec Ideal S32768x3 .f32) (ix2 p d) = _
    rw [V1_xs]
    refine shapeCast_apply _ _ _ _ ?_
    rw [Shape.rowMajor_val_two, Shape.rowMajor_val_four]
    exact cell32_rowMajor p d
  rw [hx]
  show outAt _ (V1 m ρ c main_v5 : Vec Ideal S8x128 .f32) (V1 m ρ c main_v6 : Vec Ideal S8x128 .f32)
      (V1 m ρ c main_v12 : Vec Ideal S8x128 .f32) (V1 m ρ c main_v13 : Vec Ideal S8x128 .f32)
      (V1 m ρ c main_v19 : Vec Ideal S8x4 .f32) (V1 m ρ c main_v20 : Vec Ideal S8x4 .f32)
      (V1 m ρ c main_arg3 : Vec Ideal S128x3 .f32) (V1 m ρ c main_arg4 : Vec Ideal S128 .f32)
      (V1 m ρ c main_arg7 : Vec Ideal S128x128 .f32) (V1 m ρ c main_arg8 : Vec Ideal S128 .f32)
      (V1 m ρ c main_arg11 : Vec Ideal S4x128 .f32) (V1 m ρ c main_arg12 : Vec Ideal S4 .f32) b f = _
  rw [V1_s0, V1_t0, V1_s1, V1_t1, V1_s2, V1_t2, V1_w0, V1_c0, V1_w1, V1_c1, V1_w2, V1_c2]

/-- Region 1's output array is the reference's level-1 result of the launched arguments: element `(b, p, f)` of
    either is the perceptron's output `f` at point `p` of the second grid for batch row `b`, the
    point's features being the grid's entries at row-major positions `3p, 3p + 1, 3p + 2`. -/
theorem out1_eq (c : Dev nD) : out1 m ρ c = Cert.ReferenceIdeal.Read.val_main_v122 (F := Ideal) (a0 m c) (a2 m c) (a3 m c) (a4 m c) (a5 m c) (a6 m c) (a7 m c) (a8 m c) (a9 m c) (a10 m c) (a11 m c) (a12 m c) (a13 m c) (a14 m c) := by
  funext j
  obtain ⟨b, p, f, rfl⟩ : ∃ (b : Fin 8) (p : Fin 110592) (f : Fin 4), j = ix3 b p f := ⟨j 0, j 1, j 2, eq_ix3 j⟩
  refine (Blocks1.arr_apply (V3 m ρ) c b p f).trans ?_
  refine Eq.trans ?_ (Cert.ReferenceIdeal.Level1.level_apply (a0 m c) (a2 m c) (a3 m c) (a4 m c) (a5 m c) (a6 m c) (a7 m c) (a8 m c) (a9 m c) (a10 m c) (a11 m c) (a12 m c) (a13 m c) (a14 m c) b p f).symm
  have hx : (fun d : Fin 3 => Blocks1.xs (V3 m ρ) c (ix2 p d)) = fun d => a2 m c (cell48 p d) := funext fun d => by
    show (V3 m ρ c main_v24 : Vec Ideal S110592x3 .f32) (ix2 p d) = _
    rw [V3_xs]
    refine shapeCast_apply _ _ _ _ ?_
    rw [Shape.rowMajor_val_two, Shape.rowMajor_val_four]
    exact cell48_rowMajor p d
  rw [hx]
  show outAt _ (V3 m ρ c main_v5 : Vec Ideal S8x128 .f32) (V3 m ρ c main_v6 : Vec Ideal S8x128 .f32)
      (V3 m ρ c main_v12 : Vec Ideal S8x128 .f32) (V3 m ρ c main_v13 : Vec Ideal S8x128 .f32)
      (V3 m ρ c main_v19 : Vec Ideal S8x4 .f32) (V3 m ρ c main_v20 : Vec Ideal S8x4 .f32)
      (V3 m ρ c main_arg3 : Vec Ideal S128x3 .f32) (V3 m ρ c main_arg4 : Vec Ideal S128 .f32)
      (V3 m ρ c main_arg7 : Vec Ideal S128x128 .f32) (V3 m ρ c main_arg8 : Vec Ideal S128 .f32)
      (V3 m ρ c main_arg11 : Vec Ideal S4x128 .f32) (V3 m ρ c main_arg12 : Vec Ideal S4 .f32) b f = _
  rw [V3_s0, V3_t0, V3_s1, V3_t1, V3_s2, V3_t2, V3_w0, V3_c0, V3_w1, V3_c1, V3_w2, V3_c2,
    V1_s0, V1_t0, V1_s1, V1_t1, V1_s2, V1_t2, V1_w0, V1_c0, V1_w1, V1_c1, V1_w2, V1_c2]

/-- The result array after the kernel's run: the reference's last stage of the launched arguments. -/
theorem result_eq (c : Dev nD) :
    (W5 m ρ c (Proc.devRef .tc main_v27) : Vec Ideal S8x573440 .f32) = Cert.ReferenceIdeal.Read.val_main_v124 (F := Ideal) (a0 m c) (a1 m c) (a2 m c) (a3 m c) (a4 m c) (a5 m c) (a6 m c) (a7 m c) (a8 m c) (a9 m c) (a10 m c) (a11 m c) (a12 m c) (a13 m c) (a14 m c) := by
  rw [W5_result, out0_eq, out1_eq]
  rfl

/-- Every weakly fair execution of the kernel's @main terminates without a fault, with the result array at the
    reference's term of the launched arguments and the arguments unchanged. -/
theorem run : θ_run defs (onTc (τ := τ) (main (F := Ideal))) ⟨m, fun _ => 0, ρ⟩ (fun r => ∀ c : Dev nD,
      r.2.mem ((c.tc : Thread nD τ).loc main_v27) = Cert.ReferenceIdeal.Read.val_main_v124 (F := Ideal) (a0 m c) (a1 m c) (a2 m c) (a3 m c) (a4 m c) (a5 m c) (a6 m c) (a7 m c) (a8 m c) (a9 m c) (a10 m c) (a11 m c) (a12 m c) (a13 m c) (a14 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c).1.trans (result_eq m ρ c), (h c).2⟩) (Cert.KernelIdeal.Named.run_named m ρ)

end Cert.KernelIdeal.Bridge

end
-- ==== Proof.lean ====
/-
  The certificate of a FiLM-modulated three-layer perceptron evaluated on two grids of points.

  The kernel's program computes the six scale and shift tables on the host (each a half of `z · Mᵀ + mb`), then, per
  grid, one launch that walks the grid's points in blocks of 512 and applies the three layers to a block for all eight
  batch rows at once (the first layer's product is taken once per point and shared by the batch rows; the products
  are taken on bf16 copies of the operands, which at the extended reals are the operands themselves), and joins the
  two flattened outputs. The reference repeats each grid for the eight batch rows and applies the three layers to whole
  `[8, n, ·]` arrays. Element by element both are the same sums, products and maxima in the same order, so no algebra
  beyond reading each side at an element is needed, and the precondition (finite inputs) is never opened.

    * the three frames: the two generated frames, and the reference's generated run with its result dropped;
    * the kernel's idealization rewrote nothing, so `preserves` holds trivially;
    * `algebraic`: the kernel's run ends with the result array at the reference's composed term of the launched
      arguments (Proof/Bridge.lean: the launch with the result array named, the buffers read back through the run,
      each region's output array read at an element from its blocks, the reference's levels read at an element), and
      the reference's generated run ends at that term of its own arguments, which agree.
-/
import proofs.«177964_j13537736917463_1_alg».proof.Defs
import proofs.«177964_j13537736917463_1_alg».proof.Proof.Gen.Kernel
import proofs.«177964_j13537736917463_1_alg».proof.Proof.Gen.Kernel.Skeleton
import proofs.«177964_j13537736917463_1_alg».proof.Proof.Gen.Kernel.Launch
import proofs.«177964_j13537736917463_1_alg».proof.Proof.Gen.Kernel.Points
import proofs.«177964_j13537736917463_1_alg».proof.Proof.Gen.Kernel.Frame
import proofs.«177964_j13537736917463_1_alg».proof.Proof.Gen.KernelIdeal
import proofs.«177964_j13537736917463_1_alg».proof.Proof.Gen.KernelIdeal.Skeleton
import proofs.«177964_j13537736917463_1_alg».proof.Proof.Gen.KernelIdeal.Launch
import proofs.«177964_j13537736917463_1_alg».proof.Proof.Gen.KernelIdeal.Points
import proofs.«177964_j13537736917463_1_alg».proof.Proof.Gen.KernelIdeal.Frame
import proofs.«177964_j13537736917463_1_alg».proof.Proof.Gen.ReferenceIdeal
import proofs.«177964_j13537736917463_1_alg».proof.Proof.Gen.Pre_finite_inputs
import proofs.«177964_j13537736917463_1_alg».proof.Proof.Gen.ReferenceIdeal.Run
import proofs.«177964_j13537736917463_1_alg».proof.Proof.Gen.ReferenceIdeal.Read
import proofs.«177964_j13537736917463_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the reference's composed term of arguments that agree. -/
theorem algebraic : Cert.algebraic_KernelIdeal_ReferenceIdeal := by
  intro m ρ m' ρ' _ hagree
  refine ⟨fun c => Cert.ReferenceIdeal.Read.val_main_v124 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v124_eq]
  obtain ⟨h0, h1, h2, h3, h4, h5, h6, h7, h8, h9, h10, h11, h12, h13, h14⟩ := hagree c
  rw [h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
